-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg7 : FVec F S128 .f32) (main_arg8 : FVec F S128x10 .f32) (main_arg9 : FVec F S10 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x10 .f32 := Host.absf main_arg8
  let main_cst_14 : FVec F S_ .f32 := constant S_ .f32 0x7F800000#32
  let main_v40 : FVec F S128x10 .f32 := broadcastInDim S128x10 ![] bcast_S_S128x10 main_cst_14
  let main_v41 : IVec S128x10 1 := cmpf .olt main_v39 main_v40
  let main_c_15 : IVec S_ 1 := constantI S_ 1 1#1
  let main_v42 : IVec S_ 1 := (fun x v => Host.reduce IntOp.andi x v reducesTo_S128x10_S_d0_1 h_S_) main_v41 main_c_15
  let main_v43 : IVec S_ 1 := andi main_v38 main_v42
  let main_v44 : FVec F S10 .f32 := Host.absf main_arg9
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S128 .f32) (main_arg8 : FVec F S128x10 .f32) (main_arg9 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x10 .f32) (main_arg9 : FVec F S10 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x128 : Shape := ⟨2, ![1, 128]⟩
abbrev S1x10 : Shape := ⟨2, ![1, 10]⟩
abbrev S400x10000 : Shape := ⟨2, ![400, 10000]⟩
abbrev S400x128 : Shape := ⟨2, ![400, 128]⟩
abbrev S10000x10 : Shape := ⟨2, ![10000, 10]⟩
abbrev S400x10 : Shape := ⟨2, ![400, 10]⟩
abbrev S400 : Shape := ⟨1, ![400]⟩
abbrev S400x1 : Shape := ⟨2, ![400, 1]⟩

abbrev nBuf : Space → Nat
  | .hbm => 19
  | .vmem => 27
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x10, .f32⟩
  | .hbm, ⟨9, _⟩ => ⟨S10, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x10, .f32⟩
  | .hbm, ⟨14, _⟩ => ⟨S10000x128, .f32⟩
  | .hbm, ⟨15, _⟩ => ⟨S10000x128, .f32⟩
  | .hbm, ⟨16, _⟩ => ⟨S10000x10000, .bf16⟩
  | .hbm, ⟨17, _⟩ => ⟨S10000x128, .f32⟩
  | .hbm, ⟨18, _⟩ => ⟨S10000x10, .f32⟩
  | .local _ .vmem, ⟨0, _⟩ => ⟨S10000x128, .f32⟩
  | .local _ .vmem, ⟨1, _⟩ => ⟨S128x128, .f32⟩
  | .local _ .vmem, ⟨2, _⟩ => ⟨S10000x128, .f32⟩
  | .local _ .vmem, ⟨3, _⟩ => ⟨S400x10000, .f32⟩
  | .local _ .vmem, ⟨4, _⟩ => ⟨S400x10000, .f32⟩
  | .local _ .vmem, ⟨5, _⟩ => ⟨S10000x128, .f32⟩
  | .local _ .vmem, ⟨6, _⟩ => ⟨S1x128, .f32⟩
  | .local _ .vmem, ⟨7, _⟩ => ⟨S128x128, .f32⟩
  | .local _ .vmem, ⟨8, _⟩ => ⟨S400x128, .f32⟩
  | .local _ .vmem, ⟨9, _⟩ => ⟨S400x128, .f32⟩
  | .local _ .vmem, ⟨10, _⟩ => ⟨S400x10000, .bf16⟩
  | .local _ .vmem, ⟨11, _⟩ => ⟨S400x10000, .bf16⟩
  | .local _ .vmem, ⟨12, _⟩ => ⟨S400x10000, .bf16⟩
  | .local _ .vmem, ⟨13, _⟩ => ⟨S400x10000, .bf16⟩
  | .local _ .vmem, ⟨14, _⟩ => ⟨S10000x128, .f32⟩
  | .local _ .vmem, ⟨15, _⟩ => ⟨S1x128, .f32⟩
  | .local _ .vmem, ⟨16, _⟩ => ⟨S128x128, .f32⟩
  | .local _ .vmem, ⟨17, _⟩ => ⟨S400x128, .f32⟩
  | .local _ .vmem, ⟨18, _⟩ => ⟨S400x128, .f32⟩
  | .local _ .vmem, ⟨19, _⟩ => ⟨S400x10000, .bf16⟩
  | .local _ .vmem, ⟨20, _⟩ => ⟨S400x10000, .bf16⟩
  | .local _ .vmem, ⟨21, _⟩ => ⟨S10000x128, .f32⟩
  | .local _ .vmem, ⟨22, _⟩ => ⟨S1x128, .f32⟩
  | .local _ .vmem, ⟨23, _⟩ => ⟨S128x10, .f32⟩
  | .local _ .vmem, ⟨24, _⟩ => ⟨S1x10, .f32⟩
  | .local _ .vmem, ⟨25, _⟩ => ⟨S400x10, .f32⟩
  | .local _ .vmem, ⟨26, _⟩ => ⟨S400x10, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg5_1 : Ref sig .tc := ⟨.vmem, 26, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem5_1 : DmaSem sig := 26

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x10000 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S400x10 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  shapeCasts_S128_S1x128 : S128.ShapeCasts S1x128
  shapeCasts_S10_S1x10 : S10.ShapeCasts S1x10
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  packedbf16_S400x10000_S400x10000_0_0 : (Rect.unit (s := S400x10000) ![0, 0] S400x10000.size inb_S400x10000_S400x10000_0_0).PackedRows (EltTy.packing .bf16)
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  shapeCasts_S400x10000_S400x10000 : S400x10000.ShapeCasts S400x10000
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S400x10 : S1x10.Broadcasts S400x10
  reduces_S400x10_S400 : S400x10.Reduces [1] S400
  shapeCasts_S400_S400x1 : S400.ShapeCasts S400x1
  broadcasts_S400x1_S400x10 : S400x1.Broadcasts S400x10
  inb_S400x10_S400x10_0_0 : ∀ a, (![0, 0] : Fin 2 → Nat) a + S400x10.size a ≤ S400x10.size a
  h_S400x10 : 0 < S400x10.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x128_S128x10_S400x10_1_0_0_1_n_n_wf : DotDims.WF S400x128 S128x10 S400x10 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x10000.size a ≤ S10000x10000.size a
  hwx1_5 : ∀ i : grid1.Coords, EltTy.bits .bf16 = 32 ∨ (Rect.block (s := S10000x10000) S400x10000.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x128.size a ≤ S10000x128.size a
  hwx2_4 : ∀ i : grid2.Coords, EltTy.bits .f32 = 32 ∨ (Rect.block (s := S10000x128) S400x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .f32 = 32 ∨ (Rect.block (s := S10000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x10.size a ≤ S128x10.size a
  hwx3_3 : ∀ i : grid3.Coords, EltTy.bits .f32 = 32 ∨ (Rect.block (s := S128x10) S128x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x10.size a ≤ S1x10.size a
  hwx3_4 : ∀ i : grid3.Coords, EltTy.bits .f32 = 32 ∨ (Rect.block (s := S1x10) S1x10.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S400x10.size a ≤ S10000x10.size a
  hwx3_5 : ∀ i : grid3.Coords, EltTy.bits .f32 = 32 ∨ (Rect.block (s := S10000x10) S400x10.size (cc3_transform_5 i) (hinb3_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x10_S400x10_1_0_0_1_n_n : DotDims S400x128 S128x10 S400x10 where
  lhsContracting := [1]
  rhsContracting := [0]
  lhsNonContracting := [0]
  rhsNonContracting := [1]
  lhsBatch := []
  rhsBatch := []
  wf := dot_S400x128_S128x10_S400x10_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v4) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5_0) S400x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5_1) S400x10000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v5_1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5_0) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S400x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v5_1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v2) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S128x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v3) S1x10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v7) S400x10.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x128 : Shape := ⟨2, ![1, 128]⟩
abbrev S_ : Shape := ⟨0, ![]⟩
abbrev S10000x10 : Shape := ⟨2, ![10000, 10]⟩
abbrev S1x10 : Shape := ⟨2, ![1, 10]⟩
abbrev S10000 : Shape := ⟨1, ![10000]⟩
abbrev S10000x1 : Shape := ⟨2, ![10000, 1]⟩

abbrev nBuf : Space → Nat
  | .hbm => 53
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x10, .f32⟩
  | .hbm, ⟨9, _⟩ => ⟨S10, .f32⟩
  | .hbm, ⟨10, _⟩ => ⟨S10000x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S1x128, .f32⟩
  | .hbm, ⟨21, _⟩ => ⟨S10000x128, .f32⟩
  | .hbm, ⟨22, _⟩ => ⟨S10000x128, .f32⟩
  | .hbm, ⟨23, _⟩ => ⟨S_, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S1x128, .f32⟩
  | .hbm, ⟨29, _⟩ => ⟨S10000x128, .f32⟩
  | .hbm, ⟨30, _⟩ => ⟨S10000x128, .f32⟩
  | .hbm, ⟨31, _⟩ => ⟨S_, .f32⟩
  | .hbm, ⟨32, _⟩ => ⟨S10000x128, .f32⟩
  | .hbm, ⟨33, _⟩ => ⟨S10000x128, .f32⟩
  | .hbm, ⟨34, _⟩ => ⟨S10000x10, .f32⟩
  | .hbm, ⟨35, _⟩ => ⟨S1x10, .f32⟩
  | .hbm, ⟨36, _⟩ => ⟨S10000x10, .f32⟩
  | .hbm, ⟨37, _⟩ => ⟨S10000x10, .f32⟩
  | .hbm, ⟨38, _⟩ => ⟨S_, .f32⟩
  | .hbm, ⟨39, _⟩ => ⟨S10000, .f32⟩
  | .hbm, ⟨40, _⟩ => ⟨S_, .f32⟩
  | .hbm, ⟨41, _⟩ => ⟨S10000, .f32⟩
  | .hbm, ⟨42, _⟩ => ⟨S10000, .f32⟩
  | .hbm, ⟨43, _⟩ => ⟨S10000x1, .f32⟩
  | .hbm, ⟨44, _⟩ => ⟨S10000x10, .f32⟩
  | .hbm, ⟨45, _⟩ => ⟨S10000x10, .f32⟩
  | .hbm, ⟨46, _⟩ => ⟨S10000x10, .f32⟩
  | .hbm, ⟨47, _⟩ => ⟨S_, .f32⟩
  | .hbm, ⟨48, _⟩ => ⟨S10000, .f32⟩
  | .hbm, ⟨49, _⟩ => ⟨S10000x1, .f32⟩
  | .hbm, ⟨50, _⟩ => ⟨S10000x1, .f32⟩
  | .hbm, ⟨51, _⟩ => ⟨S10000x10, .f32⟩
  | .hbm, ⟨52, _⟩ => ⟨S10000x10, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call2_cst : Ref sig .tc := ⟨.hbm, 31, rfl⟩
abbrev main_call2_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call3_cst : Ref sig .tc := ⟨.hbm, 38, rfl⟩
abbrev main_call3_v0 : Ref sig .tc := ⟨.hbm, 39, rfl⟩
abbrev main_call3_cst_0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_call3_v5 : Ref sig .tc := ⟨.hbm, 45, rfl⟩
abbrev main_call3_v6 : Ref sig .tc := ⟨.hbm, 46, rfl⟩
abbrev main_call3_cst_1 : Ref sig .tc := ⟨.hbm, 47, rfl⟩
abbrev main_call3_v7 : Ref sig .tc := ⟨.hbm, 48, rfl⟩
abbrev main_call3_v8 : Ref sig .tc := ⟨.hbm, 49, rfl⟩
abbrev main_call3_v9 : Ref sig .tc := ⟨.hbm, 50, rfl⟩
abbrev main_call3_v10 : Ref sig .tc := ⟨.hbm, 51, rfl⟩
abbrev main_v22 : Ref sig .tc := ⟨.hbm, 52, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S10_S1x10_1 : S10.BroadcastsInDim S1x10 (![1] : Fin 1 → Fin S1x10.rank)
  bcast_S1x10_S10000x10_0_1 : S1x10.BroadcastsInDim S10000x10 (![0, 1] : Fin 2 → Fin S10000x10.rank)
  reducesTo_S10000x10_S10000_d1 : S10000x10.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x10_0_1 : S10000x1.BroadcastsInDim S10000x10 (![0, 1] : Fin 2 → Fin S10000x10.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x10_S10000x10_1_0_0_1_n_n_wf : DotDims.WF S10000x128 S128x10 S10000x10 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x10_S10000x10_1_0_0_1_n_n : DotDims S10000x128 S128x10 S10000x10 where
  lhsContracting := [1]
  rhsContracting := [0]
  lhsNonContracting := [0]
  rhsNonContracting := [1]
  lhsBatch := []
  rhsBatch := []
  wf := dot_S10000x128_S128x10_S10000x10_1_0_0_1_n_n_wf

class Facts : Prop extends Facts₀ where

variable [Facts]
-- ==== Proof.Spec.lean ====
/-
  The mathematics both programs compute, entry by entry, on the extended reals.

  A three-layer graph convolution followed by a linear read-out and a row-wise log-softmax.  With `A` the
  10000 x 10000 adjacency, one layer sends a feature array `Z` (10000 x 128), a bias row `b` and the NEXT layer's
  weights `W` to the array whose entry (i, j) is

      sum_k  max (sum_l A(i,l) * Z(l,k) + b(k), 0) * W(k,j):

  the rectified affine image of row i of `A` against `Z`, already multiplied by the next weights.  Every entry of
  row i depends on row i of `A` only, which is why the same function describes a 400-row block and the whole array.
  The last layer multiplies by the 128 x 10 read-out weights, adds its bias, and takes the log-softmax of each row
  of ten logits: with `M` the row's maximum (folded from the pattern of minus infinity), entry c is
  (f c - M) - log (sum_c' exp (f c' - M)).
-/
import Idealize.ShloMosaic.PureOps.Ideal
import Idealize.ShloMosaic.Lib.ValueIdx
import Mathlib.Data.Finset.Fold

noncomputable section

open scoped BigOperators

namespace Cert.Gcn

open Idealize.ShloMosaic Idealize.ShloMosaic.ValueIdx

/-- A rank-2 array of extended reals with literal extents. -/
abbrev Mat (r c : Nat) : Type := (⟨2, ![r, c]⟩ : Shape).Idx → EReal

/-- Row `i` of a rank-2 array as a function of the column. -/
abbrev rowOf {r c : Nat} (A : Mat r c) (i : Fin r) : Fin c → EReal := fun l => A (ix2 i l)

/-- The one row of a 1 x n array. -/
abbrev row1 {n : Nat} (b : Mat 1 n) : Fin n → EReal := fun k => b (ix2 (0 : Fin 1) k)

/-- A rank-1 array as a function of its coordinate. -/
abbrev vecOf {n : Nat} (b : (⟨1, ![n]⟩ : Shape).Idx → EReal) : Fin n → EReal := fun k => b (ix1 k)

/-- Entry (i, j) of the first projection `x · W`: the sum over the 128 input features. -/
def proj (x : Mat 10000 128) (w : Mat 128 128) : Mat 10000 128 :=
  fun i => ∑ k : Fin 128, x (ix2 (i 0) k) * w (ix2 k (i 1))

/-- One hidden activation of a node: its adjacency row `a` against column `k` of the features, plus the bias,
    rectified. -/
def hid (a : Fin 10000 → EReal) (z : Mat 10000 128) (b : Fin 128 → EReal) (k : Fin 128) : EReal :=
  max ((∑ l : Fin 10000, a l * z (ix2 l k)) + b k) 0

/-- One entry of a layer's output row: the node's hidden activations against column `j` of the next weights. -/
def layerRow (a : Fin 10000 → EReal) (z : Mat 10000 128) (b : Fin 128 → EReal) (w : Mat 128 128) (j : Fin 128) : EReal :=
  ∑ k : Fin 128, hid a z b k * w (ix2 k j)

/-- A whole layer: row i of the result is `layerRow` of row i of the adjacency. -/
def layer (A : Mat 10000 10000) (z : Mat 10000 128) (b : Fin 128 → EReal) (w : Mat 128 128) : Mat 10000 128 :=
  fun i => layerRow (rowOf A (i 0)) z b w (i 1)

/-- One logit of a node: its hidden activations against column `c` of the read-out weights, plus the read-out bias. -/
def logit (a : Fin 10000 → EReal) (z : Mat 10000 128) (b : Fin 128 → EReal) (wl : Mat 128 10) (bl : Fin 10 → EReal)
    (c : Fin 10) : EReal :=
  (∑ k : Fin 128, hid a z b k * wl (ix2 k c)) + bl c

/-- The maximum of ten logits, folded from the 32-bit pattern of minus infinity. -/
def rowMax (f : Fin 10 → EReal) : EReal :=
  (Finset.univ : Finset (Fin 10)).fold max (Ideal.ofBits .f32 0xFF800000#32) f

/-- The log-softmax of a row of ten logits at class `c`. -/
def logSoftmax (f : Fin 10 → EReal) (c : Fin 10) : EReal :=
  (f c - rowMax f) - Ideal.log (∑ c' : Fin 10, Ideal.exp (f c' - rowMax f))

/-- One entry of the final output row. -/
def outRow (a : Fin 10000 → EReal) (z : Mat 10000 128) (b : Fin 128 → EReal) (wl : Mat 128 10) (bl : Fin 10 → EReal)
    (c : Fin 10) : EReal :=
  logSoftmax (logit a z b wl bl) c

/-- The whole output: row i is `outRow` of row i of the adjacency. -/
def out (A : Mat 10000 10000) (z : Mat 10000 128) (b : Fin 128 → EReal) (wl : Mat 128 10) (bl : Fin 10 → EReal) :
    Mat 10000 10 :=
  fun i => outRow (rowOf A (i 0)) z b wl bl (i 1)

/-- The network: three layers over the same adjacency, then the read-out. -/
def network (x : Mat 10000 128) (A : Mat 10000 10000) (w1 : Mat 128 128) (b1 : Fin 128 → EReal) (w2 : Mat 128 128)
    (b2 : Fin 128 → EReal) (w3 : Mat 128 128) (b3 : Fin 128 → EReal) (wl : Mat 128 10) (bl : Fin 10 → EReal) : Mat 10000 10 :=
  out A (layer A (layer A (proj x w1) b1 w2) b2 w3) b3 wl bl

/-- Folding `max` from a start value never goes below it, so taking the maximum with the start value again changes
    nothing. -/
theorem max_start_fold {n : Nat} (s : EReal) (f : Fin n → EReal) :
    max s ((Finset.univ : Finset (Fin n)).fold max s f) = (Finset.univ : Finset (Fin n)).fold max s f :=
  max_eq_right ((Finset.le_fold_max s).mpr (Or.inl le_rfl))

end Cert.Gcn

end
-- ==== Proof.PayHid.lean ====
/-
  The part the three layer bodies share: a 400-row block of the adjacency against the whole feature array, plus the
  bias row, rectified.  Entry (r, k) of that block of hidden activations is the specification's `hid` of row r of
  the block.  A matrix product into a zero accumulator is the plain sum over the contracted coordinate; the format of
  the operands plays no part at the exact extended reals.
-/
import proofs.«141943_g22127671509522_cont_8to1_1214_5_alg».proof.Proof.Gen.KernelIdeal.Skeleton
import proofs.«141943_g22127671509522_cont_8to1_1214_5_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Payload

open Cert.KernelIdeal Cert.KernelIdeal.Gen Cert.Gcn
open Idealize.ShloMosaic Idealize.ShloMosaic.ValueIdx

/-- The block of hidden activations a layer body computes from its adjacency block, the features and the bias row. -/
def hidBlock {φ₁ φ₂ : FTy} (x0 : FVec Ideal S400x10000 φ₁) (z : FVec Ideal S10000x128 φ₂) (b : FVec Ideal S1x128 .f32) :
    FVec Ideal S400x128 .f32 :=
  maximumf
    (addf (matmul dot_S400x10000_S10000x128_S400x128_1_0_0_1_n_n none x0 z (constant S400x128 .f32 0x00000000#32))
      (broadcastTo S400x128 b broadcasts_S1x128_S400x128))
    (broadcast S400x128 (Scalar.ofBits (F := Ideal) .f32 0x00000000#32))

/-! ## The adjacency block against the features: the operand indices of the product, axis by axis

The left operand keeps the result's row and takes the contracted coordinate as its column; the right operand takes the
contracted coordinate as its row and keeps the result's column. -/

theorem lhs_adj_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_adj_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_adj_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_adj_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- Entry (r, k) of the adjacency block times the features, into a zero accumulator: the sum over the 10000 nodes of
    row r of the block against column k of the features. The sum over the one-axis contraction index is carried to the
    sum over its coordinate; the operand indices are then the pairs (r, l) and (l, k), coordinate by coordinate. -/
theorem adjProduct_apply {φ₁ φ₂ : FTy} (x0 : FVec Ideal S400x10000 φ₁) (z : FVec Ideal S10000x128 φ₂) (r : Fin 400) (k : Fin 128) :
    matmul dot_S400x10000_S10000x128_S400x128_1_0_0_1_n_n none x0 z (constant (F := Ideal) S400x128 .f32 0x00000000#32) (ix2 r k)
      = ∑ l : Fin 10000, x0 (ix2 r l) * z (ix2 l k) := by
  refine (Ideal.matmul_constant_zero_apply dot_S400x10000_S10000x128_S400x128_1_0_0_1_n_n none x0 z (ix2 r k)).trans ?_
  rw [← Equiv.sum_comp (ValueIdx.contrEquiv1 dot_S400x10000_S10000x128_S400x128_1_0_0_1_n_n 10000 rfl rfl).symm]
  refine Finset.sum_congr rfl fun l _ => ?_
  have hk := ValueIdx.contrEquiv1_symm_val dot_S400x10000_S10000x128_S400x128_1_0_0_1_n_n 10000 rfl rfl l
  have el : dot_S400x10000_S10000x128_S400x128_1_0_0_1_n_n.lhsIdx (ix2 r k) ((ValueIdx.contrEquiv1 dot_S400x10000_S10000x128_S400x128_1_0_0_1_n_n 10000 rfl rfl).symm l) = ix2 r l := funext fun a => Fin.ext (by
    match a with
    | ⟨0, _⟩ => exact lhs_adj_0 _ _
    | ⟨1, _⟩ => exact (lhs_adj_1 _ _).trans hk)
  have er : dot_S400x10000_S10000x128_S400x128_1_0_0_1_n_n.rhsIdx (ix2 r k) ((ValueIdx.contrEquiv1 dot_S400x10000_S10000x128_S400x128_1_0_0_1_n_n 10000 rfl rfl).symm l) = ix2 l k := funext fun a => Fin.ext (by
    match a with
    | ⟨0, _⟩ => exact (rhs_adj_0 _ _).trans hk
    | ⟨1, _⟩ => exact rhs_adj_1 _ _)
  rw [el, er]

/-- Entry (r, k) of the hidden block is the rectified affine image of row r of the adjacency block. -/
theorem hidBlock_apply {φ₁ φ₂ : FTy} (x0 : FVec Ideal S400x10000 φ₁) (z : FVec Ideal S10000x128 φ₂)
    (b : FVec Ideal S1x128 .f32) (r : Fin 400) (k : Fin 128) :
    hidBlock x0 z b (ix2 r k) = hid (rowOf x0 r) z (row1 b) k := by
  unfold hidBlock hid
  rw [maximumf_apply, addf_apply, broadcast_apply, adjProduct_apply, broadcastTo_1b_ab_apply]
  exact congrArg (max _) Ideal.ofBits_zero_f32

end Cert.KernelIdeal.Payload

end
-- ==== Proof.PayLayer.lean ====
/-
  The stored values of the first three bodies, read at one entry.

  The first body stores the product of the whole feature array with the first weights.  The two layer bodies store
  the hidden block times the next layer's weights; the second one's adjacency block and features arrive through
  changes of float format, which are the identity at the exact extended reals, so both are the same row function.
-/
import proofs.«141943_g22127671509522_cont_8to1_1214_5_alg».proof.Proof.PayHid

noncomputable section

open scoped BigOperators

namespace Cert.KernelIdeal.Payload

open Cert.KernelIdeal Cert.KernelIdeal.Gen Cert.Gcn
open Idealize.ShloMosaic Idealize.ShloMosaic.ValueIdx

/-! ## The two products against 128 x 128 weights: operand indices axis by axis, then the sum over the 128 features

In both the left operand keeps the result's row and takes the contracted coordinate as its column, and the weights take
the contracted coordinate as their row and keep the result's column. -/

theorem lhs_feat_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_feat_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_feat_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_feat_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry i of the feature array times the weights, into a zero accumulator: the sum over the 128 input features of
    row (i 0) of the features against column (i 1) of the weights. -/
theorem featProduct_apply {φ₁ φ₂ : FTy} (x : FVec Ideal S10000x128 φ₁) (w : FVec Ideal S128x128 φ₂) (i : S10000x128.Idx) :
    matmul dot_S10000x128_S128x128_S10000x128_1_0_0_1_n_n none x w (constant (F := Ideal) S10000x128 .f32 0x00000000#32) i
      = ∑ k : Fin 128, x (ix2 (i 0) k) * w (ix2 k (i 1)) := by
  refine (Ideal.matmul_constant_zero_apply dot_S10000x128_S128x128_S10000x128_1_0_0_1_n_n none x w i).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx i ((ValueIdx.contrEquiv1 dot_S10000x128_S128x128_S10000x128_1_0_0_1_n_n 128 rfl rfl).symm k) = ix2 (i 0) k := funext fun a => Fin.ext (by
    match a with
    | ⟨0, _⟩ => exact lhs_feat_0 _ _
    | ⟨1, _⟩ => exact (lhs_feat_1 _ _).trans hk)
  have er : dot_S10000x128_S128x128_S10000x128_1_0_0_1_n_n.rhsIdx i ((ValueIdx.contrEquiv1 dot_S10000x128_S128x128_S10000x128_1_0_0_1_n_n 128 rfl rfl).symm k) = ix2 k (i 1) := funext fun a => Fin.ext (by
    match a with
    | ⟨0, _⟩ => exact (rhs_feat_0 _ _).trans hk
    | ⟨1, _⟩ => exact rhs_feat_1 _ _)
  exact congrArg₂ (· * ·) (congrArg x el) (congrArg w er)

theorem lhs_hid_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhs_hid_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhs_hid_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhs_hid_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- Entry (r, j) of a 400-row block times the weights, into a zero accumulator: the sum over the 128 hidden features
    of row r of the block against column j of the weights. -/
theorem hidProduct_apply {φ₁ φ₂ : FTy} (h : FVec Ideal S400x128 φ₁) (w : FVec Ideal S128x128 φ₂) (r : Fin 400) (j : Fin 128) :
    matmul dot_S400x128_S128x128_S400x128_1_0_0_1_n_n none h w (constant (F := Ideal) S400x128 .f32 0x00000000#32) (ix2 r j)
      = ∑ k : Fin 128, h (ix2 r k) * w (ix2 k j) := by
  refine (Ideal.matmul_constant_zero_apply dot_S400x128_S128x128_S400x128_1_0_0_1_n_n none h w (ix2 r j)).trans ?_
  rw [← Equiv.sum_comp (ValueIdx.contrEquiv1 dot_S400x128_S128x128_S400x128_1_0_0_1_n_n 128 rfl rfl).symm]
  refine Finset.sum_congr rfl fun k _ => ?_
  have hk := ValueIdx.contrEquiv1_symm_val dot_S400x128_S128x128_S400x128_1_0_0_1_n_n 128 rfl rfl k
  have el : dot_S400x128_S128x128_S400x128_1_0_0_1_n_n.lhsIdx (ix2 r j) ((ValueIdx.contrEquiv1 dot_S400x128_S128x128_S400x128_1_0_0_1_n_n 128 rfl rfl).symm k) = ix2 r k := funext fun a => Fin.ext (by
    match a with
    | ⟨0, _⟩ => exact lhs_hid_0 _ _
    | ⟨1, _⟩ => exact (lhs_hid_1 _ _).trans hk)
  have er : dot_S400x128_S128x128_S400x128_1_0_0_1_n_n.rhsIdx (ix2 r j) ((ValueIdx.contrEquiv1 dot_S400x128_S128x128_S400x128_1_0_0_1_n_n 128 rfl rfl).symm k) = ix2 k j := funext fun a => Fin.ext (by
    match a with
    | ⟨0, _⟩ => exact (rhs_hid_0 _ _).trans hk
    | ⟨1, _⟩ => exact rhs_hid_1 _ _)
  rw [el, er]

/-- A hidden block times the next weights, entry (r, j): the layer's row function of row r of the adjacency block. -/
theorem hidBlock_layer_apply {φ₁ φ₂ : FTy} (x0 : FVec Ideal S400x10000 φ₁) (z : FVec Ideal S10000x128 φ₂)
    (b : FVec Ideal S1x128 .f32) (w : FVec Ideal S128x128 .f32) (r : Fin 400) (j : Fin 128) :
    matmul dot_S400x128_S128x128_S400x128_1_0_0_1_n_n none (hidBlock x0 z b) w (constant (F := Ideal) S400x128 .f32 0x00000000#32) (ix2 r j)
      = layerRow (rowOf x0 r) z (row1 b) w j := by
  rw [hidProduct_apply]
  unfold layerRow
  exact Finset.sum_congr rfl fun k _ => by rw [hidBlock_apply]

/-- The first body's product of the feature array with the first weights, entry by entry. -/
theorem k0_pay1_eq (x : Vec Ideal S10000x128 .f32) (w : Vec Ideal S128x128 .f32) :
    k0_pay1 (F := Ideal) x w = proj x w := by
  funext i
  exact featProduct_apply (φ₁ := .f32) (φ₂ := .f32) x w i

/-- The narrowed copy of an adjacency block is the block itself. -/
theorem k1_pay1_eq (x0 : Vec Ideal S400x10000 .f32) :
    k1_pay1 (F := Ideal) x0 = x0 := rfl

/-- The first layer's stored value at row r, column j of the block. -/
theorem k1_pay2_apply (x0 : Vec Ideal S400x10000 .f32) (z : Vec Ideal S10000x128 .f32) (b : Vec Ideal S1x128 .f32)
    (w : Vec Ideal S128x128 .f32) (r : Fin 400) (j : Fin 128) :
    k1_pay2 (F := Ideal) x0 z b w (ix2 r j) = layerRow (rowOf x0 r) z (row1 b) w j := by
  have e : k1_pay2 (F := Ideal) x0 z b w
      = matmul (φ₁ := .f32) (φ₂ := .f32) dot_S400x128_S128x128_S400x128_1_0_0_1_n_n none (hidBlock (φ₁ := .f32) (φ₂ := .f32) x0 z b) w
          (constant (F := Ideal) S400x128 .f32 0x00000000#32) := by
    unfold k1_pay2 hidBlock
    simp only [shapeCast_self]
  rw [e]
  exact hidBlock_layer_apply (φ₁ := .f32) (φ₂ := .f32) x0 z b w r j

/-- The second layer's stored value at row r, column j of the block (its adjacency block arrives narrowed). -/
theorem k2_pay1_apply (x0 : Vec Ideal S400x10000 .bf16) (z : Vec Ideal S10000x128 .f32) (b : Vec Ideal S1x128 .f32)
    (w : Vec Ideal S128x128 .f32) (r : Fin 400) (j : Fin 128) :
    k2_pay1 (F := Ideal) x0 z b w (ix2 r j) = layerRow (rowOf x0 r) z (row1 b) w j := by
  have e : k2_pay1 (F := Ideal) x0 z b w
      = matmul (φ₁ := .f32) (φ₂ := .f32) dot_S400x128_S128x128_S400x128_1_0_0_1_n_n none (hidBlock (φ₁ := .bf16) (φ₂ := .bf16) x0 (truncf .bf16 z bitsLt_bf16_f32) b) w
          (constant (F := Ideal) S400x128 .f32 0x00000000#32) := by
    unfold k2_pay1 hidBlock
    simp only [shapeCast_self]
  rw [e]
  exact hidBlock_layer_apply (φ₁ := .bf16) (φ₂ := .bf16) x0 (truncf .bf16 z bitsLt_bf16_f32) b w r j

end Cert.KernelIdeal.Payload

end
-- ==== Proof.Region0.lean ====
/-
  The first region, read as values: the product of the feature array with the first weights.

  The call has no grid: its one point stages the whole feature array and the whole weight array and writes back the
  whole result, whose entry (i, j) is the sum over the 128 input features of x(i,k) * W(k,j).
-/
import proofs.«141943_g22127671509522_cont_8to1_1214_5_alg».proof.Proof.Gen.KernelIdeal.Frame
import proofs.«141943_g22127671509522_cont_8to1_1214_5_alg».proof.Proof.PayLayer
import Idealize.ShloMosaic.Lib.Pipeline.Value

set_option maxRecDepth 16384

noncomputable section

namespace Cert.KernelIdeal.Region0

open Cert.KernelIdeal Cert.KernelIdeal.Gen Cert.KernelIdeal.Payload Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- At the call's one point every window sits at block (0, 0). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The call has a point. -/
theorem has_point : ∃ t : Fin cfg0.N, True := (by decide +kernel : ∃ t : Fin grid0.N, True)

/-- The feature window's block is the whole feature array. -/
theorem blk_x (c : Dev nD) (t : Fin cfg0.N) : (iblk0 V c 0 t : Mat 10000 128) = V c main_arg0 := by
  obtain ⟨e0, e1, -⟩ := idx_facts t
  funext y
  show V c main_arg0 (((cfg0.win 0).blk t).view.emb y) = V c main_arg0 y
  refine congrArg (V c main_arg0) ?_
  funext a; apply Fin.ext
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The weight window's block is the whole weight array. -/
theorem blk_w (c : Dev nD) (t : Fin cfg0.N) : (iblk0 V c 1 t : Mat 128 128) = V c main_arg2 := by
  obtain ⟨-, -, e0, e1, -⟩ := idx_facts t
  funext y
  show V c main_arg2 (((cfg0.win 1).blk t).view.emb y) = V c main_arg2 y
  refine congrArg (V c main_arg2) ?_
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What the one point writes back is the whole product, read through its (whole) block. -/
theorem flushed2_eq (c : Dev nD) (t : Fin cfg0.N) :
    (dat0 V c).flushed 2 t = ((cfg0.win 2).blk t).view.read (Elt Ideal) (proj (V c main_arg0) (V c main_arg2)) := by
  show (cfg0.win 2).cut (grid0.coords t) ((dat0 V c).after 2 t) = _
  rw [after0_2]
  unfold out0_2
  rw [View.canon_unit_zero zeros]
  simp only [View.ld_unit_zero (S := S10000x128) zeros, View.ld_unit_zero (S := S128x128) zeros]
  obtain ⟨-, -, -, -, e0, e1⟩ := idx_facts t
  refine (k0_pay1_eq (iblk0 V c 0 t) (iblk0 V c 1 t)).trans ?_
  rw [blk_x V c t, blk_w V c t]
  funext y
  show proj (V c main_arg0) (V c main_arg2) y = proj (V c main_arg0) (V c main_arg2) (((cfg0.win 2).blk t).view.emb y)
  refine congrArg (proj (V c main_arg0) (V c main_arg2)) ?_
  funext a; apply Fin.ext
  match a with
  | ⟨0, _⟩ => show (y 0).val = win0_2.index t (0 : Fin 2) * 10000 + 1 * (y 0).val; omega
  | ⟨1, _⟩ => show (y 1).val = win0_2.index t (1 : Fin 2) * 128 + 1 * (y 1).val; omega

/-- An index of the array is in point t's block iff each coordinate is in the block's range on its axis. -/
theorem mem_blk2 (t : Fin cfg0.N) (i : S10000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v4).slice (win0_2.rect t)).set ↔ _
  rw [View.set_slice_whole, Rect.mem_set_unit]
  exact Iff.rfl

/-- The one block is the whole array. -/
theorem cover2 (i : S10000x128.Idx) : ∃ t : Fin cfg0.N, (cfg0.win 2).flush t = true ∧ i ∈ ((cfg0.win 2).blk t).view.set := by
  have hi0 : (i 0).val < 10000 := (i 0).isLt
  have hi1 : (i 1).val < 128 := (i 1).isLt
  obtain ⟨t, -⟩ := has_point
  refine ⟨t, flush0_2 t, ?_⟩
  rw [mem_blk2]
  obtain ⟨-, -, -, -, e0, e1⟩ := idx_facts t
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- The projected features when the region ends. -/
theorem final2 (c : Dev nD) : (dat0 V c).arrAt 2 cfg0.N = proj (V c main_arg0) (V c main_arg2) :=
  (dat0 V c).arrAt_eq_of_cover 2 _ (fun t _ => flushed2_eq V c t) cover2

end Cert.KernelIdeal.Region0

end
-- ==== Proof.Region1.lean ====
/-
  The first layer's region, read as values: what its two output arrays hold when the region ends, whatever the
  buffers held when it was entered.

  The grid has 25 points; point t stages rows 400 t … 400 t + 399 of the adjacency, the whole feature array, the
  bias row and the next weights, and writes back rows 400 t … 400 t + 399 of both outputs.  The body's stored
  value at (r, j) is the layer's row function of row r of the block, which is row 400 t + r of the adjacency; so
  every point writes back ITS rows of one whole-array function, and the 25 blocks cover the array.  The narrowed
  copy of the adjacency is the adjacency itself, entry by entry.
-/
import proofs.«141943_g22127671509522_cont_8to1_1214_5_alg».proof.Proof.Gen.KernelIdeal.Frame
import proofs.«141943_g22127671509522_cont_8to1_1214_5_alg».proof.Proof.PayLayer
import Idealize.ShloMosaic.Lib.Pipeline.Value

set_option maxRecDepth 16384

noncomputable section

namespace Cert.KernelIdeal.Region1

open Cert.KernelIdeal Cert.KernelIdeal.Gen Cert.KernelIdeal.Payload Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the 25 points: the adjacency window and both outputs move down one block of rows
    per point; the features, the bias row and the weights stay at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem npoints (t : Fin cfg1.N) : t.val < 25 := t.isLt

/-! ## The input blocks at a point -/

/-- Row r of the adjacency block at point t is row 400 t + r of the adjacency. -/
theorem blk_adj (c : Dev nD) (t : Fin cfg1.N) (r : Fin 400) (l : Fin 10000) :
    iblk1 V c 0 t (ix2 r l) = V c main_arg1 (ix2 (⟨400 * t.val + r.val, by have := npoints t; omega⟩ : Fin 10000) l) := by
  obtain ⟨e0, e1, -⟩ := idx_facts t
  show V c main_arg1 (((cfg1.win 0).blk t).view.emb (ix2 r l)) = _
  refine congrArg (V c main_arg1) ?_
  funext a; apply Fin.ext
  match a with
  | ⟨0, _⟩ => show win1_0.index t (0 : Fin 2) * 400 + 1 * r.val = 400 * t.val + r.val; omega
  | ⟨1, _⟩ => show win1_0.index t (1 : Fin 2) * 10000 + 1 * l.val = l.val; omega

/-- The feature window's block is the whole feature array. -/
theorem blk_feat (c : Dev nD) (t : Fin cfg1.N) : (iblk1 V c 1 t : Mat 10000 128) = V c main_v4 := by
  obtain ⟨-, -, e0, e1, -⟩ := idx_facts t
  funext y
  show V c main_v4 (((cfg1.win 1).blk t).view.emb y) = V c main_v4 y
  refine congrArg (V c main_v4) ?_
  funext a; apply Fin.ext
  match a with
  | ⟨0, _⟩ => show win1_1.index t (0 : Fin 2) * 10000 + 1 * (y 0).val = (y 0).val; omega
  | ⟨1, _⟩ => show win1_1.index t (1 : Fin 2) * 128 + 1 * (y 1).val = (y 1).val; omega

/-- The bias window's block is the whole bias row. -/
theorem blk_bias (c : Dev nD) (t : Fin cfg1.N) : (iblk1 V c 2 t : Mat 1 128) = V c main_v0 := by
  obtain ⟨-, -, -, -, e0, e1, -⟩ := idx_facts t
  funext y
  show V c main_v0 (((cfg1.win 2).blk t).view.emb y) = V c main_v0 y
  refine congrArg (V c main_v0) ?_
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The weight window's block is the whole weight array. -/
theorem blk_w (c : Dev nD) (t : Fin cfg1.N) : (iblk1 V c 3 t : Mat 128 128) = V c main_arg4 := by
  obtain ⟨-, -, -, -, -, -, e0, e1, -⟩ := idx_facts t
  funext y
  show V c main_arg4 (((cfg1.win 3).blk t).view.emb y) = V c main_arg4 y
  refine congrArg (V c main_arg4) ?_
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-! ## Output window 4: the layer's result -/

/-- The layer at an index whose coordinates are known. -/
theorem layer_at (A : Mat 10000 10000) (Z : Mat 10000 128) (b : Fin 128 → EReal) (W : Mat 128 128)
    (i : (⟨2, ![10000, 128]⟩ : Shape).Idx) (p : Fin 10000) (j : Fin 128) (h0 : (i 0).val = p.val) (h1 : (i 1).val = j.val) :
    layer A Z b W i = layerRow (rowOf A p) Z b W j := by
  have e0 : i 0 = p := Fin.ext h0
  have e1 : i 1 = j := Fin.ext h1
  unfold layer
  rw [e0, e1]

/-- What point t writes back is its block of rows of the layer of the arrays as the region finds them. -/
theorem flushed4_eq (c : Dev nD) (t : Fin cfg1.N) :
    (dat1 V c).flushed 4 t
      = ((cfg1.win 4).blk t).view.read (Elt Ideal) (layer (V c main_arg1) (V c main_v4) (row1 (V c main_v0)) (V c main_arg4)) := by
  show (cfg1.win 4).cut (grid1.coords t) ((dat1 V c).after 4 t) = _
  rw [after1_4]
  unfold out1_4
  rw [View.canon_unit_zero zeros]
  simp only [View.ld_unit_zero (S := S400x10000) zeros, View.ld_unit_zero (S := S10000x128) zeros,
    View.ld_unit_zero (S := S1x128) zeros, View.ld_unit_zero (S := S128x128) zeros]
  obtain ⟨-, -, -, -, -, -, -, -, e0, e1, -⟩ := idx_facts t
  funext y
  obtain ⟨r, j, rfl⟩ : ∃ (r : Fin 400) (j : Fin 128), y = ix2 r j := ⟨y 0, y 1, eq_ix2 y⟩
  refine (k1_pay2_apply (iblk1 V c 0 t) (iblk1 V c 1 t) (iblk1 V c 2 t) (iblk1 V c 3 t) r j).trans ?_
  have hrow : rowOf (iblk1 V c 0 t) r = rowOf (V c main_arg1) (⟨400 * t.val + r.val, by have := npoints t; omega⟩ : Fin 10000) :=
    funext fun l => blk_adj V c t r l
  rw [hrow, blk_feat V c t, blk_bias V c t, blk_w V c t]
  refine (layer_at (V c main_arg1) (V c main_v4) (row1 (V c main_v0)) (V c main_arg4) _ _ j ?_ ?_).symm
  · show win1_4.index t (0 : Fin 2) * 400 + 1 * r.val = 400 * t.val + r.val; omega
  · show win1_4.index t (1 : Fin 2) * 128 + 1 * j.val = j.val; omega

/-- An index of the array is in point t's block iff each coordinate is in the block's range on its axis. -/
theorem mem_blk4 (t : Fin cfg1.N) (i : S10000x128.Idx) :
    i ∈ ((cfg1.win 4).blk t).view.set ↔ ∀ a : Fin 2, win1_4.index t a * S400x128.size a ≤ (i a).val ∧ (i a).val < win1_4.index t a * S400x128.size a + S400x128.size a := by
  show i ∈ ((View.whole main_v5_0).slice (win1_4.rect t)).set ↔ _
  rw [View.set_slice_whole, Rect.mem_set_unit]
  exact Iff.rfl

/-- Row i sits in the block of point i / 400. -/
theorem cover4 (i : S10000x128.Idx) : ∃ t : Fin cfg1.N, (cfg1.win 4).flush t = true ∧ i ∈ ((cfg1.win 4).blk t).view.set := by
  have hi0 : (i 0).val < 10000 := (i 0).isLt
  have hi1 : (i 1).val < 128 := (i 1).isLt
  have hq : (i 0).val / 400 < 25 := by omega
  refine ⟨⟨(i 0).val / 400, hq⟩, flush1_4 _, ?_⟩
  rw [mem_blk4]
  obtain ⟨-, -, -, -, -, -, -, -, e0, e1, -⟩ := idx_facts ⟨(i 0).val / 400, hq⟩
  intro a
  match a with
  | ⟨0, _⟩ =>
    show win1_4.index ⟨(i 0).val / 400, hq⟩ (0 : Fin 2) * 400 ≤ (i 0).val ∧ (i 0).val < win1_4.index ⟨(i 0).val / 400, hq⟩ (0 : Fin 2) * 400 + 400
    rw [e0]; show (i 0).val / 400 * 400 ≤ (i 0).val ∧ (i 0).val < (i 0).val / 400 * 400 + 400; omega
  | ⟨1, _⟩ =>
    show win1_4.index ⟨(i 0).val / 400, hq⟩ (1 : Fin 2) * 128 ≤ (i 1).val ∧ (i 1).val < win1_4.index ⟨(i 0).val / 400, hq⟩ (1 : Fin 2) * 128 + 128
    rw [e1]; omega

/-- The layer's output array when the region ends. -/
theorem final4 (c : Dev nD) :
    (dat1 V c).arrAt 4 cfg1.N = layer (V c main_arg1) (V c main_v4) (row1 (V c main_v0)) (V c main_arg4) :=
  (dat1 V c).arrAt_eq_of_cover 4 _ (fun t _ => flushed4_eq V c t) cover4

/-! ## Output window 5: the narrowed copy of the adjacency -/

/-- What point t writes back is its block of rows of the adjacency itself. -/
theorem flushed5_eq (c : Dev nD) (t : Fin cfg1.N) :
    (dat1 V c).flushed 5 t = ((cfg1.win 5).blk t).view.read (Elt Ideal) (V c main_arg1 : Mat 10000 10000) := by
  show (cfg1.win 5).cut (grid1.coords t) ((dat1 V c).after 5 t) = _
  rw [after1_5]
  unfold out1_5
  rw [View.canon_unit_zero zeros]
  simp only [View.ld_unit_zero (S := S400x10000) zeros]
  obtain ⟨-, -, -, -, -, -, -, -, -, -, e0, e1⟩ := idx_facts t
  funext y
  obtain ⟨r, l, rfl⟩ : ∃ (r : Fin 400) (l : Fin 10000), y = ix2 r l := ⟨y 0, y 1, eq_ix2 y⟩
  refine (congrFun (k1_pay1_eq (iblk1 V c 0 t)) (ix2 r l)).trans ?_
  refine (blk_adj V c t r l).trans ?_
  show V c main_arg1 _ = V c main_arg1 (((cfg1.win 5).blk t).view.emb (ix2 r l))
  refine congrArg (V c main_arg1) ?_
  funext a; apply Fin.ext
  match a with
  | ⟨0, _⟩ => show 400 * t.val + r.val = win1_5.index t (0 : Fin 2) * 400 + 1 * r.val; omega
  | ⟨1, _⟩ => show l.val = win1_5.index t (1 : Fin 2) * 10000 + 1 * l.val; omega

theorem mem_blk5 (t : Fin cfg1.N) (i : S10000x10000.Idx) :
    i ∈ ((cfg1.win 5).blk t).view.set ↔ ∀ a : Fin 2, win1_5.index t a * S400x10000.size a ≤ (i a).val ∧ (i a).val < win1_5.index t a * S400x10000.size a + S400x10000.size a := by
  show i ∈ ((View.whole main_v5_1).slice (win1_5.rect t)).set ↔ _
  rw [View.set_slice_whole, Rect.mem_set_unit]
  exact Iff.rfl

theorem cover5 (i : S10000x10000.Idx) : ∃ t : Fin cfg1.N, (cfg1.win 5).flush t = true ∧ i ∈ ((cfg1.win 5).blk t).view.set := by
  have hi0 : (i 0).val < 10000 := (i 0).isLt
  have hi1 : (i 1).val < 10000 := (i 1).isLt
  have hq : (i 0).val / 400 < 25 := by omega
  refine ⟨⟨(i 0).val / 400, hq⟩, flush1_5 _, ?_⟩
  rw [mem_blk5]
  obtain ⟨-, -, -, -, -, -, -, -, -, -, e0, e1⟩ := idx_facts ⟨(i 0).val / 400, hq⟩
  intro a
  match a with
  | ⟨0, _⟩ =>
    show win1_5.index ⟨(i 0).val / 400, hq⟩ (0 : Fin 2) * 400 ≤ (i 0).val ∧ (i 0).val < win1_5.index ⟨(i 0).val / 400, hq⟩ (0 : Fin 2) * 400 + 400
    rw [e0]; show (i 0).val / 400 * 400 ≤ (i 0).val ∧ (i 0).val < (i 0).val / 400 * 400 + 400; omega
  | ⟨1, _⟩ =>
    show win1_5.index ⟨(i 0).val / 400, hq⟩ (1 : Fin 2) * 10000 ≤ (i 1).val ∧ (i 1).val < win1_5.index ⟨(i 0).val / 400, hq⟩ (1 : Fin 2) * 10000 + 10000
    rw [e1]; omega

/-- The narrowed copy of the adjacency when the region ends: the adjacency. -/
theorem final5 (c : Dev nD) : (dat1 V c).arrAt 5 cfg1.N = (V c main_arg1 : Mat 10000 10000) :=
  (dat1 V c).arrAt_eq_of_cover 5 _ (fun t _ => flushed5_eq V c t) cover5

end Cert.KernelIdeal.Region1

end
-- ==== Proof.Region2.lean ====
/-
  The second layer's region, read as values: what its output array holds when the region ends, whatever the
  buffers held when it was entered.

  As in the first layer's region the grid has 25 points and point t stages rows 400 t … 400 t + 399 of the
  adjacency (here its narrowed copy, which holds the same extended reals), the whole array of the first layer's
  results, the second bias row and the third layer's weights, and writes back rows 400 t … 400 t + 399 of the output.
  The body's stored value at (r, j) is the layer's row function of row r of the block, so every point writes back
  its rows of one whole-array function, and the 25 blocks cover the array.
-/
import proofs.«141943_g22127671509522_cont_8to1_1214_5_alg».proof.Proof.Gen.KernelIdeal.Frame
import proofs.«141943_g22127671509522_cont_8to1_1214_5_alg».proof.Proof.PayLayer
import Idealize.ShloMosaic.Lib.Pipeline.Value

set_option maxRecDepth 16384

noncomputable section

namespace Cert.KernelIdeal.Region2

open Cert.KernelIdeal Cert.KernelIdeal.Gen Cert.KernelIdeal.Payload Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the 25 points: the adjacency window and the output move down one block of rows per
    point; the features, the bias row and the weights stay at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem npoints (t : Fin cfg2.N) : t.val < 25 := t.isLt

/-! ## The input blocks at a point -/

/-- Row r of the adjacency block at point t is row 400 t + r of the (narrowed) adjacency. -/
theorem blk_adj (c : Dev nD) (t : Fin cfg2.N) (r : Fin 400) (l : Fin 10000) :
    iblk2 V c 0 t (ix2 r l) = V c main_v5_1 (ix2 (⟨400 * t.val + r.val, by have := npoints t; omega⟩ : Fin 10000) l) := by
  obtain ⟨e0, e1, -⟩ := idx_facts t
  show V c main_v5_1 (((cfg2.win 0).blk t).view.emb (ix2 r l)) = _
  refine congrArg (V c main_v5_1) ?_
  funext a; apply Fin.ext
  match a with
  | ⟨0, _⟩ => show win2_0.index t (0 : Fin 2) * 400 + 1 * r.val = 400 * t.val + r.val; omega
  | ⟨1, _⟩ => show win2_0.index t (1 : Fin 2) * 10000 + 1 * l.val = l.val; omega

/-- The feature window's block is the whole array of the first layer's results. -/
theorem blk_feat (c : Dev nD) (t : Fin cfg2.N) : (iblk2 V c 1 t : Mat 10000 128) = V c main_v5_0 := by
  obtain ⟨-, -, e0, e1, -⟩ := idx_facts t
  funext y
  show V c main_v5_0 (((cfg2.win 1).blk t).view.emb y) = V c main_v5_0 y
  refine congrArg (V c main_v5_0) ?_
  funext a; apply Fin.ext
  match a with
  | ⟨0, _⟩ => show win2_1.index t (0 : Fin 2) * 10000 + 1 * (y 0).val = (y 0).val; omega
  | ⟨1, _⟩ => show win2_1.index t (1 : Fin 2) * 128 + 1 * (y 1).val = (y 1).val; omega

/-- The bias window's block is the whole bias row. -/
theorem blk_bias (c : Dev nD) (t : Fin cfg2.N) : (iblk2 V c 2 t : Mat 1 128) = V c main_v1 := by
  obtain ⟨-, -, -, -, e0, e1, -⟩ := idx_facts t
  funext y
  show V c main_v1 (((cfg2.win 2).blk t).view.emb y) = V c main_v1 y
  refine congrArg (V c main_v1) ?_
  funext a; apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The weight window's block is the whole weight array. -/
theorem blk_w (c : Dev nD) (t : Fin cfg2.N) : (iblk2 V c 3 t : Mat 128 128) = V c main_arg6 := by
  obtain ⟨-, -, -, -, -, -, e0, e1, -⟩ := idx_facts t
  funext y
  show V c main_arg6 (((cfg2.win 3).blk t).view.emb y) = V c main_arg6 y
  refine congrArg (V c main_arg6) ?_
  funext a; apply Fin.ext
  match a with
  | ⟨0, _⟩ => show win2_3.index t (0 : Fin 2) * 128 + 1 * (y 0).val = (y 0).val; omega
  | ⟨1, _⟩ => show win2_3.index t (1 : Fin 2) * 128 + 1 * (y 1).val = (y 1).val; omega

/-! ## The output window: the layer's result -/

/-- The layer at an index whose coordinates are known. -/
theorem layer_at (A : Mat 10000 10000) (Z : Mat 10000 128) (b : Fin 128 → EReal) (W : Mat 128 128)
    (i : (⟨2, ![10000, 128]⟩ : Shape).Idx) (p : Fin 10000) (j : Fin 128) (h0 : (i 0).val = p.val) (h1 : (i 1).val = j.val) :
    layer A Z b W i = layerRow (rowOf A p) Z b W j := by
  have e0 : i 0 = p := Fin.ext h0
  have e1 : i 1 = j := Fin.ext h1
  unfold layer
  rw [e0, e1]

/-- What point t writes back is its block of rows of the layer of the arrays as the region finds them. -/
theorem flushed4_eq (c : Dev nD) (t : Fin cfg2.N) :
    (dat2 V c).flushed 4 t
      = ((cfg2.win 4).blk t).view.read (Elt Ideal) (layer (V c main_v5_1) (V c main_v5_0) (row1 (V c main_v1)) (V c main_arg6)) := by
  show (cfg2.win 4).cut (grid2.coords t) ((dat2 V c).after 4 t) = _
  rw [after2_4]
  unfold out2_4
  rw [View.canon_unit_zero zeros]
  simp only [View.ld_unit_zero (S := S400x10000) zeros, View.ld_unit_zero (S := S10000x128) zeros,
    View.ld_unit_zero (S := S1x128) zeros, View.ld_unit_zero (S := S128x128) zeros]
  obtain ⟨-, -, -, -, -, -, -, -, e0, e1⟩ := idx_facts t
  funext y
  obtain ⟨r, j, rfl⟩ : ∃ (r : Fin 400) (j : Fin 128), y = ix2 r j := ⟨y 0, y 1, eq_ix2 y⟩
  refine (k2_pay1_apply (iblk2 V c 0 t) (iblk2 V c 1 t) (iblk2 V c 2 t) (iblk2 V c 3 t) r j).trans ?_
  have hrow : rowOf (iblk2 V c 0 t) r = rowOf (V c main_v5_1) (⟨400 * t.val + r.val, by have := npoints t; omega⟩ : Fin 10000) :=
    funext fun l => blk_adj V c t r l
  rw [hrow, blk_feat V c t, blk_bias V c t, blk_w V c t]
  refine (layer_at (V c main_v5_1) (V c main_v5_0) (row1 (V c main_v1)) (V c main_arg6) _ _ j ?_ ?_).symm
  · show win2_4.index t (0 : Fin 2) * 400 + 1 * r.val = 400 * t.val + r.val; omega
  · show win2_4.index t (1 : Fin 2) * 128 + 1 * j.val = j.val; omega

/-- An index of the array is in point t's block iff each coordinate is in the block's range on its axis. -/
theorem mem_blk4 (t : Fin cfg2.N) (i : S10000x128.Idx) :
    i ∈ ((cfg2.win 4).blk t).view.set ↔ ∀ a : Fin 2, win2_4.index t a * S400x128.size a ≤ (i a).val ∧ (i a).val < win2_4.index t a * S400x128.size a + S400x128.size a := by
  show i ∈ ((View.whole main_v6).slice (win2_4.rect t)).set ↔ _
  rw [View.set_slice_whole, Rect.mem_set_unit]
  exact Iff.rfl

/-- Row i sits in the block of point i / 400. -/
theorem cover4 (i : S10000x128.Idx) : ∃ t : Fin cfg2.N, (cfg2.win 4).flush t = true ∧ i ∈ ((cfg2.win 4).blk t).view.set := by
  have hi0 : (i 0).val < 10000 := (i 0).isLt
  have hi1 : (i 1).val < 128 := (i 1).isLt
  have hq : (i 0).val / 400 < 25 := by omega
  refine ⟨⟨(i 0).val / 400, hq⟩, flush2_4 _, ?_⟩
  rw [mem_blk4]
  obtain ⟨-, -, -, -, -, -, -, -, e0, e1⟩ := idx_facts ⟨(i 0).val / 400, hq⟩
  intro a
  match a with
  | ⟨0, _⟩ =>
    show win2_4.index ⟨(i 0).val / 400, hq⟩ (0 : Fin 2) * 400 ≤ (i 0).val ∧ (i 0).val < win2_4.index ⟨(i 0).val / 400, hq⟩ (0 : Fin 2) * 400 + 400
    rw [e0]; show (i 0).val / 400 * 400 ≤ (i 0).val ∧ (i 0).val < (i 0).val / 400 * 400 + 400; omega
  | ⟨1, _⟩ =>
    show win2_4.index ⟨(i 0).val / 400, hq⟩ (1 : Fin 2) * 128 ≤ (i 1).val ∧ (i 1).val < win2_4.index ⟨(i 0).val / 400, hq⟩ (1 : Fin 2) * 128 + 128
    rw [e1]; omega

/-- The layer's output array when the region ends. -/
theorem final4 (c : Dev nD) :
    (dat2 V c).arrAt 4 cfg2.N = layer (V c main_v5_1) (V c main_v5_0) (row1 (V c main_v1)) (V c main_arg6) :=
  (dat2 V c).arrAt_eq_of_cover 4 _ (fun t _ => flushed4_eq V c t) cover4

end Cert.KernelIdeal.Region2

end
-- ==== Proof.PayFinal.lean ====
/-
  The last body's stored value, read at one entry: the hidden block times the read-out weights plus the read-out
  bias gives a row of ten logits per node, and the body then takes the row's log-softmax: the lane maximum is the fold
  of max over the ten classes from the pattern of minus infinity, the lane sum is the sum over the ten classes.
-/
import proofs.«141943_g22127671509522_cont_8to1_1214_5_alg».proof.Proof.PayHid
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Group.Finset.Basic

noncomputable section

open scoped BigOperators

namespace Cert.KernelIdeal.Payload

open Cert.KernelIdeal Cert.KernelIdeal.Gen Cert.Gcn
open Idealize.ShloMosaic Idealize.ShloMosaic.ValueIdx

/-! ## The read-out product at an entry -/

/-- The left operand's row coordinate is the output's row. -/
theorem lhs_readout_0 (i : S400x10.Idx) (q : Cert.KernelIdeal.dot_S400x128_S128x10_S400x10_1_0_0_1_n_n.contr.Idx) :
    (Cert.KernelIdeal.dot_S400x128_S128x10_S400x10_1_0_0_1_n_n.lhsIdx i q 0).val = (i 0).val := by
  unfold DotDims.lhsIdx
  rw [dif_neg (show ¬(0 : Fin S400x128.rank) ∈ Cert.KernelIdeal.dot_S400x128_S128x10_S400x10_1_0_0_1_n_n.lhsBatch by decide),
    dif_pos (show (0 : Fin S400x128.rank) ∈ Cert.KernelIdeal.dot_S400x128_S128x10_S400x10_1_0_0_1_n_n.lhsNonContracting by decide)]
  rfl

/-- The left operand's column coordinate is the contracted coordinate. -/
theorem lhs_readout_1 (i : S400x10.Idx) (q : Cert.KernelIdeal.dot_S400x128_S128x10_S400x10_1_0_0_1_n_n.contr.Idx) :
    (Cert.KernelIdeal.dot_S400x128_S128x10_S400x10_1_0_0_1_n_n.lhsIdx i q 1).val = (q ⟨0, by decide⟩).val :=
  Cert.KernelIdeal.dot_S400x128_S128x10_S400x10_1_0_0_1_n_n.lhsIdx_val_of_single rfl i q

/-- The right operand's row coordinate is the contracted coordinate. -/
theorem rhs_readout_0 (i : S400x10.Idx) (q : Cert.KernelIdeal.dot_S400x128_S128x10_S400x10_1_0_0_1_n_n.contr.Idx) :
    (Cert.KernelIdeal.dot_S400x128_S128x10_S400x10_1_0_0_1_n_n.rhsIdx i q 0).val = (q ⟨0, by decide⟩).val :=
  Cert.KernelIdeal.dot_S400x128_S128x10_S400x10_1_0_0_1_n_n.rhsIdx_val_of_single rfl i q

/-- The right operand's column coordinate is the output's column. -/
theorem rhs_readout_1 (i : S400x10.Idx) (q : Cert.KernelIdeal.dot_S400x128_S128x10_S400x10_1_0_0_1_n_n.contr.Idx) :
    (Cert.KernelIdeal.dot_S400x128_S128x10_S400x10_1_0_0_1_n_n.rhsIdx i q 1).val = (i 1).val := by
  unfold DotDims.rhsIdx
  rw [dif_neg (show ¬(1 : Fin S128x10.rank) ∈ Cert.KernelIdeal.dot_S400x128_S128x10_S400x10_1_0_0_1_n_n.rhsBatch by decide),
    dif_pos (show (1 : Fin S128x10.rank) ∈ Cert.KernelIdeal.dot_S400x128_S128x10_S400x10_1_0_0_1_n_n.rhsNonContracting by decide)]
  rfl

/-- A 400 x 128 block times the 128 x 10 read-out weights, into a zero accumulator, at (r, c): the sum over the
    128 hidden features. -/
theorem readout_apply (h : FVec Ideal S400x128 .f32) (wl : FVec Ideal S128x10 .f32) (r : Fin 400) (c : Fin 10) :
    matmul Cert.KernelIdeal.dot_S400x128_S128x10_S400x10_1_0_0_1_n_n none h wl (constant (F := Ideal) S400x10 .f32 0x00000000#32) (ix2 r c)
      = ∑ k : Fin 128, h (ix2 r k) * wl (ix2 k c) := by
  simp only [matmul]
  rw [Ideal.matmul_constant_zero_apply,
    ← Equiv.sum_comp (ValueIdx.contrEquiv1 Cert.KernelIdeal.dot_S400x128_S128x10_S400x10_1_0_0_1_n_n 128 rfl rfl).symm]
  refine Finset.sum_congr rfl fun k _ => ?_
  have hk := ValueIdx.contrEquiv1_symm_val Cert.KernelIdeal.dot_S400x128_S128x10_S400x10_1_0_0_1_n_n 128 rfl rfl k
  have el : Cert.KernelIdeal.dot_S400x128_S128x10_S400x10_1_0_0_1_n_n.lhsIdx (ix2 r c)
      ((ValueIdx.contrEquiv1 Cert.KernelIdeal.dot_S400x128_S128x10_S400x10_1_0_0_1_n_n 128 rfl rfl).symm k) = ix2 r k :=
    funext fun a => Fin.ext (by
      match a with
      | ⟨0, _⟩ => exact lhs_readout_0 _ _
      | ⟨1, _⟩ => exact (lhs_readout_1 _ _).trans hk)
  have er : Cert.KernelIdeal.dot_S400x128_S128x10_S400x10_1_0_0_1_n_n.rhsIdx (ix2 r c)
      ((ValueIdx.contrEquiv1 Cert.KernelIdeal.dot_S400x128_S128x10_S400x10_1_0_0_1_n_n 128 rfl rfl).symm k) = ix2 k c :=
    funext fun a => Fin.ext (by
      match a with
      | ⟨0, _⟩ => exact (rhs_readout_0 _ _).trans hk
      | ⟨1, _⟩ => exact rhs_readout_1 _ _)
  rw [el, er]

/-! ## The lane reductions and the keep-dimension layout steps, over an arbitrary 400 x 10 array -/

/-- Row r of the reduced shape with class c put back on the reduced axis is the entry (r, c). -/
theorem lift_row (h : S400x10.Reduces [1] S400) (r : Fin 400) (c : Fin 10) :
    h.lift (ix1 r) c = ix2 r c := by
  funext a
  apply Fin.ext
  match a with
  | ⟨0, _⟩ => rfl
  | ⟨1, _⟩ => rfl

/-- The lane maximum of a 400 x 10 array at row r is the maximum of that row, folded from minus infinity. -/
theorem laneMax_apply (v : FVec Ideal S400x10 .f32) (r : Fin 400) :
    multiReduction (F := Ideal) .maximumf [1] S400 v 0xFF800000#32 reduces_S400x10_S400 (.inl rfl) rfl (ix1 r)
      = rowMax fun c => v (ix2 r c) := by
  refine (Ideal.multiReduction_maximumf_single v _ reduces_S400x10_S400 (.inl rfl) rfl (ix1 r)).trans ?_
  have hf : (v ∘ reduces_S400x10_S400.lift (ix1 r)) = fun c : Fin 10 => v (ix2 r c) :=
    funext fun c => congrArg v (lift_row _ r c)
  rw [hf]
  rfl

/-- The lane sum of a 400 x 10 array at row r is the sum of that row. -/
theorem laneSum_apply (v : FVec Ideal S400x10 .f32) (r : Fin 400) :
    multiReduction (F := Ideal) .add [1] S400 v 0x00000000#32 reduces_S400x10_S400 (.inl rfl) rfl (ix1 r)
      = ∑ c : Fin 10, v (ix2 r c) := by
  refine (Ideal.multiReduction_add_single v _ reduces_S400x10_S400 (.inl rfl) rfl (ix1 r)).trans ?_
  exact Finset.sum_congr rfl fun c _ => congrArg v (lift_row _ r c)

/-- A column of 400 entries viewed as a 400 x 1 array reads, at (r, 0), entry r. -/
theorem column_apply {α : Type} (u : S400.Idx → α) (r : Fin 400) (z : Fin 1) :
    shapeCast S400x1 u shapeCasts_S400_S400x1 (ix2 r z) = u (ix1 r) :=
  shapeCast_apply u _ _ _ (by
    have hz : z.val = 0 := by omega
    rw [Shape.rowMajor_val_two, Shape.rowMajor_val_one]
    show r.val = r.val * 1 + z.val
    rw [hz, Nat.mul_one, Nat.add_zero])

/-- A 400 x 1 column broadcast along ten lanes reads, at (r, c), the column's entry r. -/
theorem lanes_apply {α : Type} (w : S400x1.Idx → α) (r : Fin 400) (c : Fin 10) :
    broadcastTo S400x10 w broadcasts_S400x1_S400x10 (ix2 r c) = w (ix2 r (0 : Fin 1)) :=
  broadcastTo_apply w _ _ _ fun a =>
    match a with
    | ⟨0, _⟩ => by
      show r.val = if (400 : Nat) = 1 then 0 else r.val
      rw [if_neg (by decide)]
    | ⟨1, _⟩ => by
      show (0 : Nat) = if (1 : Nat) = 1 then 0 else c.val
      rw [if_pos rfl]

/-! ## The body's value: the logits from the hidden block, then the row-wise log-softmax -/

/-- The array of logits the body forms from a block of hidden activations. -/
def logitBlock (h : FVec Ideal S400x128 .f32) (wl : FVec Ideal S128x10 .f32) (bl : FVec Ideal S1x10 .f32) :
    FVec Ideal S400x10 .f32 :=
  addf (matmul Cert.KernelIdeal.dot_S400x128_S128x10_S400x10_1_0_0_1_n_n none h wl (constant (F := Ideal) S400x10 .f32 0x00000000#32))
    (broadcastTo S400x10 (shapeCast S1x10 bl shapeCasts_S1x10_S1x10) broadcasts_S1x10_S400x10)

/-- Entry (r, c) of the logits: the hidden row against column c of the read-out weights, plus the bias. -/
theorem logitBlock_apply (h : FVec Ideal S400x128 .f32) (wl : FVec Ideal S128x10 .f32) (bl : FVec Ideal S1x10 .f32)
    (r : Fin 400) (c : Fin 10) :
    logitBlock h wl bl (ix2 r c) = (∑ k : Fin 128, h (ix2 r k) * wl (ix2 k c)) + bl (ix2 (0 : Fin 1) c) := by
  unfold logitBlock
  rw [addf_apply, readout_apply, shapeCast_self, broadcastTo_1b_ab_apply]

/-- The body's row-wise log-softmax of a 400 x 10 array: subtract the lane maximum, then subtract the logarithm of
    the lane sum of the exponentials. -/
def softBlock (v : FVec Ideal S400x10 .f32) : FVec Ideal S400x10 .f32 :=
  subf
    (subf v (broadcastTo S400x10 (shapeCast S400x1
      (multiReduction (F := Ideal) .maximumf [1] S400 v 0xFF800000#32 reduces_S400x10_S400 (.inl rfl) rfl)
      shapeCasts_S400_S400x1) broadcasts_S400x1_S400x10))
    (broadcastTo S400x10 (log (shapeCast S400x1
      (multiReduction (F := Ideal) .add [1] S400
        (exp (subf v (broadcastTo S400x10 (shapeCast S400x1
          (multiReduction (F := Ideal) .maximumf [1] S400 v 0xFF800000#32 reduces_S400x10_S400 (.inl rfl) rfl)
          shapeCasts_S400_S400x1) broadcasts_S400x1_S400x10)))
        0x00000000#32 reduces_S400x10_S400 (.inl rfl) rfl)
      shapeCasts_S400_S400x1)) broadcasts_S400x1_S400x10)

/-- The array with the lane maximum subtracted, at (r, c). -/
theorem shifted_apply (v : FVec Ideal S400x10 .f32) (r : Fin 400) (c : Fin 10) :
    subf v (broadcastTo S400x10 (shapeCast S400x1
      (multiReduction (F := Ideal) .maximumf [1] S400 v 0xFF800000#32 reduces_S400x10_S400 (.inl rfl) rfl)
      shapeCasts_S400_S400x1) broadcasts_S400x1_S400x10) (ix2 r c)
      = v (ix2 r c) - rowMax fun c' => v (ix2 r c') := by
  rw [subf_apply, lanes_apply, column_apply, laneMax_apply]

/-- Entry (r, c) of the body's log-softmax is the specification's log-softmax of row r at class c. -/
theorem softBlock_apply (v : FVec Ideal S400x10 .f32) (r : Fin 400) (c : Fin 10) :
    softBlock v (ix2 r c) = logSoftmax (fun c' => v (ix2 r c')) c := by
  unfold softBlock logSoftmax
  rw [subf_apply, shifted_apply, lanes_apply]
  show _ - Ideal.log (shapeCast S400x1 _ shapeCasts_S400_S400x1 (ix2 r (0 : Fin 1))) = _
  rw [column_apply, laneSum_apply]
  refine congrArg (fun s => _ - Ideal.log s) (Finset.sum_congr rfl fun c' _ => ?_)
  show Ideal.exp _ = _
  rw [shifted_apply]

/-- The last body's stored value at row r, class c of the block. -/
theorem k3_pay1_apply (x0 : Vec Ideal S400x10000 .bf16) (z : Vec Ideal S10000x128 .f32) (b : Vec Ideal S1x128 .f32)
    (wl : Vec Ideal S128x10 .f32) (bl : Vec Ideal S1x10 .f32) (r : Fin 400) (c : Fin 10) :
    k3_pay1 (F := Ideal) x0 z b wl bl (ix2 r c) = outRow (rowOf x0 r) z (row1 b) wl (row1 bl) c := by
  have e : k3_pay1 (F := Ideal) x0 z b wl bl
      = softBlock (logitBlock (hidBlock (shapeCast S400x10000 x0 shapeCasts_S400x10000_S400x10000)
          (truncf .bf16 (shapeCast S10000x128 z shapeCasts_S10000x128_S10000x128) bitsLt_bf16_f32)
          (shapeCast S1x128 b shapeCasts_S1x128_S1x128)) wl bl) := rfl
  rw [e, shapeCast_self, shapeCast_self, shapeCast_self, softBlock_apply]
  unfold outRow
  refine congrArg (fun f => logSoftmax f c) (funext fun c' => ?_)
  rw [logitBlock_apply]
  unfold logit
  refine congrArg (· + bl (ix2 (0 : Fin 1) c')) (Finset.sum_congr rfl fun k _ => ?_)
  rw [hidBlock_apply]
  rfl

end Cert.KernelIdeal.Payload

end
-- ==== Proof.Region3.lean ====
/-
  The last region, read as values: what the output array holds when the region ends, whatever the buffers held
  when it was entered.

  The grid has 25 points; point t stages rows 400 t … 400 t + 399 of the (narrowed) adjacency, the whole array of the
  second layer's results, the third bias row, the read-out weights and the read-out bias row, and writes back rows
  400 t … 400 t + 399 of the 10000 x 10 output.  The body's stored value at (r, c) is the log-softmax, at class c, of
  the ten logits of row r of the block, so every point writes back its rows of one whole-array function, and the 25
  blocks cover the array.
-/
import proofs.«141943_g22127671509522_cont_8to1_1214_5_alg».proof.Proof.Gen.KernelIdeal.Frame
import proofs.«141943_g22127671509522_cont_8to1_1214_5_alg».proof.Proof.PayFinal
import Idealize.ShloMosaic.Lib.Pipeline.Value

set_option maxRecDepth 16384

noncomputable section

namespace Cert.KernelIdeal.Region3

open Cert.KernelIdeal Cert.KernelIdeal.Gen Cert.KernelIdeal.Payload Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the 25 points: the adjacency window and the output move down one block of rows per
    point; the features, the two bias rows and the read-out weights stay at block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem npoints (t : Fin cfg3.N) : t.val < 25 := t.isLt

/-! ## The input blocks at a point -/

/-- Row r of the adjacency block at point t is row 400 t + r of the (narrowed) adjacency. -/
theorem blk_adj (c : Dev nD) (t : Fin cfg3.N) (r : Fin 400) (l : Fin 10000) :
    iblk3 V c 0 t (ix2 r l) = V c main_v5_1 (ix2 (⟨400 * t.val + r.val, by have := npoints t; omega⟩ : Fin 10000) l) := by
  obtain ⟨e0, e1, -⟩ := idx_facts t
  show V c main_v5_1 (((cfg3.win 0).blk t).view.emb (ix2 r l)) = _
  refine congrArg (V c main_v5_1) ?_
  funext a; apply Fin.ext
  match a with
  | ⟨0, _⟩ => show win3_0.index t (0 : Fin 2) * 400 + 1 * r.val = 400 * t.val + r.val; omega
  | ⟨1, _⟩ => show win3_0.index t (1 : Fin 2) * 10000 + 1 * l.val = l.val; omega

/-- The feature window's block is the whole array of the second layer's results. -/
theorem blk_feat (c : Dev nD) (t : Fin cfg3.N) : (iblk3 V c 1 t : Mat 10000 128) = V c main_v6 := by
  obtain ⟨-, -, e0, e1, -⟩ := idx_facts t
  funext y
  show V c main_v6 (((cfg3.win 1).blk t).view.emb y) = V c main_v6 y
  refine congrArg (V c main_v6) ?_
  funext a; apply Fin.ext
  match a with
  | ⟨0, _⟩ => show win3_1.index t (0 : Fin 2) * 10000 + 1 * (y 0).val = (y 0).val; omega
  | ⟨1, _⟩ => show win3_1.index t (1 : Fin 2) * 128 + 1 * (y 1).val = (y 1).val; omega

/-- The bias window's block is the whole bias row. -/
theorem blk_bias (c : Dev nD) (t : Fin cfg3.N) : (iblk3 V c 2 t : Mat 1 128) = V c main_v2 := by
  obtain ⟨-, -, -, -, e0, e1, -⟩ := idx_facts t
  funext y
  show V c main_v2 (((cfg3.win 2).blk t).view.emb y) = V c main_v2 y
  refine congrArg (V c main_v2) ?_
  funext a; apply Fin.ext
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- The read-out weight window's block is the whole weight array. -/
theorem blk_w (c : Dev nD) (t : Fin cfg3.N) : (iblk3 V c 3 t : Mat 128 10) = V c main_arg8 := by
  obtain ⟨-, -, -, -, -, -, e0, e1, -⟩ := idx_facts t
  funext y
  show V c main_arg8 (((cfg3.win 3).blk t).view.emb y) = V c main_arg8 y
  refine congrArg (V c main_arg8) ?_
  funext a; apply Fin.ext
  match a with
  | ⟨0, _⟩ => show win3_3.index t (0 : Fin 2) * 128 + 1 * (y 0).val = (y 0).val; omega
  | ⟨1, _⟩ => show win3_3.index t (1 : Fin 2) * 10 + 1 * (y 1).val = (y 1).val; omega

/-- The read-out bias window's block is the whole read-out bias row. -/
theorem blk_bl (c : Dev nD) (t : Fin cfg3.N) : (iblk3 V c 4 t : Mat 1 10) = V c main_v3 := by
  obtain ⟨-, -, -, -, -, -, -, -, e0, e1, -⟩ := idx_facts t
  funext y
  show V c main_v3 (((cfg3.win 4).blk t).view.emb y) = V c main_v3 y
  refine congrArg (V c main_v3) ?_
  funext a; apply Fin.ext
  match a with
  | ⟨0, _⟩ => show win3_4.index t (0 : Fin 2) * 1 + 1 * (y 0).val = (y 0).val; omega
  | ⟨1, _⟩ => show win3_4.index t (1 : Fin 2) * 10 + 1 * (y 1).val = (y 1).val; omega

/-! ## The output window -/

/-- The output at an index whose coordinates are known. -/
theorem out_at (A : Mat 10000 10000) (Z : Mat 10000 128) (b : Fin 128 → EReal) (Wl : Mat 128 10) (bl : Fin 10 → EReal)
    (i : (⟨2, ![10000, 10]⟩ : Shape).Idx) (p : Fin 10000) (k : Fin 10) (h0 : (i 0).val = p.val) (h1 : (i 1).val = k.val) :
    out A Z b Wl bl i = outRow (rowOf A p) Z b Wl bl k := by
  have e0 : i 0 = p := Fin.ext h0
  have e1 : i 1 = k := Fin.ext h1
  unfold out
  rw [e0, e1]

/-- What point t writes back is its block of rows of the output of the arrays as the region finds them. -/
theorem flushed5_eq (c : Dev nD) (t : Fin cfg3.N) :
    (dat3 V c).flushed 5 t
      = ((cfg3.win 5).blk t).view.read (Elt Ideal)
          (out (V c main_v5_1) (V c main_v6) (row1 (V c main_v2)) (V c main_arg8) (row1 (V c main_v3))) := by
  show (cfg3.win 5).cut (grid3.coords t) ((dat3 V c).after 5 t) = _
  rw [after3_5]
  unfold out3_5
  rw [View.canon_unit_zero zeros]
  simp only [View.ld_unit_zero (S := S400x10000) zeros, View.ld_unit_zero (S := S10000x128) zeros,
    View.ld_unit_zero (S := S1x128) zeros, View.ld_unit_zero (S := S128x10) zeros, View.ld_unit_zero (S := S1x10) zeros]
  obtain ⟨-, -, -, -, -, -, -, -, -, -, e0, e1⟩ := idx_facts t
  funext y
  obtain ⟨r, k, rfl⟩ : ∃ (r : Fin 400) (k : Fin 10), y = ix2 r k := ⟨y 0, y 1, eq_ix2 y⟩
  refine (k3_pay1_apply (iblk3 V c 0 t) (iblk3 V c 1 t) (iblk3 V c 2 t) (iblk3 V c 3 t) (iblk3 V c 4 t) r k).trans ?_
  have hrow : rowOf (iblk3 V c 0 t) r = rowOf (V c main_v5_1) (⟨400 * t.val + r.val, by have := npoints t; omega⟩ : Fin 10000) :=
    funext fun l => blk_adj V c t r l
  rw [hrow, blk_feat V c t, blk_bias V c t, blk_w V c t, blk_bl V c t]
  refine (out_at (V c main_v5_1) (V c main_v6) (row1 (V c main_v2)) (V c main_arg8) (row1 (V c main_v3)) _ _ k ?_ ?_).symm
  · show win3_5.index t (0 : Fin 2) * 400 + 1 * r.val = 400 * t.val + r.val; omega
  · show win3_5.index t (1 : Fin 2) * 10 + 1 * k.val = k.val; omega

/-- An index of the array is in point t's block iff each coordinate is in the block's range on its axis. -/
theorem mem_blk5 (t : Fin cfg3.N) (i : S10000x10.Idx) :
    i ∈ ((cfg3.win 5).blk t).view.set ↔ ∀ a : Fin 2, win3_5.index t a * S400x10.size a ≤ (i a).val ∧ (i a).val < win3_5.index t a * S400x10.size a + S400x10.size a := by
  show i ∈ ((View.whole main_v7).slice (win3_5.rect t)).set ↔ _
  rw [View.set_slice_whole, Rect.mem_set_unit]
  exact Iff.rfl

/-- Row i sits in the block of point i / 400. -/
theorem cover5 (i : S10000x10.Idx) : ∃ t : Fin cfg3.N, (cfg3.win 5).flush t = true ∧ i ∈ ((cfg3.win 5).blk t).view.set := by
  have hi0 : (i 0).val < 10000 := (i 0).isLt
  have hi1 : (i 1).val < 10 := (i 1).isLt
  have hq : (i 0).val / 400 < 25 := by omega
  refine ⟨⟨(i 0).val / 400, hq⟩, flush3_5 _, ?_⟩
  rw [mem_blk5]
  obtain ⟨-, -, -, -, -, -, -, -, -, -, e0, e1⟩ := idx_facts ⟨(i 0).val / 400, hq⟩
  intro a
  match a with
  | ⟨0, _⟩ =>
    show win3_5.index ⟨(i 0).val / 400, hq⟩ (0 : Fin 2) * 400 ≤ (i 0).val ∧ (i 0).val < win3_5.index ⟨(i 0).val / 400, hq⟩ (0 : Fin 2) * 400 + 400
    rw [e0]; show (i 0).val / 400 * 400 ≤ (i 0).val ∧ (i 0).val < (i 0).val / 400 * 400 + 400; omega
  | ⟨1, _⟩ =>
    show win3_5.index ⟨(i 0).val / 400, hq⟩ (1 : Fin 2) * 10 ≤ (i 1).val ∧ (i 1).val < win3_5.index ⟨(i 0).val / 400, hq⟩ (1 : Fin 2) * 10 + 10
    rw [e1]; omega

/-- The output array when the region ends. -/
theorem final5 (c : Dev nD) :
    (dat3 V c).arrAt 5 cfg3.N = out (V c main_v5_1) (V c main_v6) (row1 (V c main_v2)) (V c main_arg8) (row1 (V c main_v3)) :=
  (dat3 V c).arrAt_eq_of_cover 5 _ (fun t _ => flushed5_eq V c t) cover5

end Cert.KernelIdeal.Region3

end
-- ==== Proof.Chain.lean ====
/-
  The kernel program's result as a function of its arguments: the four regions' values composed.

  Between the regions the buffers are what the previous region left: a region's output arrays at what its points
  wrote back, every other buffer untouched.  Reading the last output array back through the four boundaries: the
  last region's output is the log-softmax read-out of the third layer over the second layer's results, those are
  the second layer over the first's, those the first layer over the projected features, and the narrowed adjacency
  all three read is the adjacency itself.  The four bias rows are the bias vectors reshaped to one row.
-/
import proofs.«141943_g22127671509522_cont_8to1_1214_5_alg».proof.Proof.Gen.KernelIdeal.Frame
import proofs.«141943_g22127671509522_cont_8to1_1214_5_alg».proof.Proof.Region0
import proofs.«141943_g22127671509522_cont_8to1_1214_5_alg».proof.Proof.Region1
import proofs.«141943_g22127671509522_cont_8to1_1214_5_alg».proof.Proof.Region2
import proofs.«141943_g22127671509522_cont_8to1_1214_5_alg».proof.Proof.Region3
import Idealize.ShloMosaic.Lib.ValueLayout
import Idealize.ShloMosaic.Lib.StableHlo.Run

set_option maxRecDepth 16384

noncomputable section

namespace Cert.KernelIdeal.Chain

open Cert.KernelIdeal Cert.KernelIdeal.Gen Cert.Gcn
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## After the four reshapes: the arguments as launched, each bias vector as one row -/

theorem at1_arg0 (c : Dev nD) : V1 m ρ c main_arg0 = m ((c : Thread nD τ).loc main_arg0) := by
  show StableHlo.after hostOps0 (W0 m ρ c) (Proc.devRef .tc main_arg0) = _
  dsimp only [hostOps0]; after_results
theorem at1_arg1 (c : Dev nD) : V1 m ρ c main_arg1 = m ((c : Thread nD τ).loc main_arg1) := by
  show StableHlo.after hostOps0 (W0 m ρ c) (Proc.devRef .tc main_arg1) = _
  dsimp only [hostOps0]; after_results
theorem at1_arg2 (c : Dev nD) : V1 m ρ c main_arg2 = m ((c : Thread nD τ).loc main_arg2) := by
  show StableHlo.after hostOps0 (W0 m ρ c) (Proc.devRef .tc main_arg2) = _
  dsimp only [hostOps0]; after_results
theorem at1_arg4 (c : Dev nD) : V1 m ρ c main_arg4 = m ((c : Thread nD τ).loc main_arg4) := by
  show StableHlo.after hostOps0 (W0 m ρ c) (Proc.devRef .tc main_arg4) = _
  dsimp only [hostOps0]; after_results
theorem at1_arg6 (c : Dev nD) : V1 m ρ c main_arg6 = m ((c : Thread nD τ).loc main_arg6) := by
  show StableHlo.after hostOps0 (W0 m ρ c) (Proc.devRef .tc main_arg6) = _
  dsimp only [hostOps0]; after_results
theorem at1_arg8 (c : Dev nD) : V1 m ρ c main_arg8 = m ((c : Thread nD τ).loc main_arg8) := by
  show StableHlo.after hostOps0 (W0 m ρ c) (Proc.devRef .tc main_arg8) = _
  dsimp only [hostOps0]; after_results

theorem at1_bias1 (c : Dev nD) :
    (V1 m ρ c main_v0 : Mat 1 128) = shapeCast S1x128 (m ((c : Thread nD τ).loc main_arg3)) shapeCasts_S128_S1x128 := by
  show StableHlo.after hostOps0 (W0 m ρ c) (Proc.devRef .tc main_v0) = _
  dsimp only [hostOps0]; after_results; rfl
theorem at1_bias2 (c : Dev nD) :
    (V1 m ρ c main_v1 : Mat 1 128) = shapeCast S1x128 (m ((c : Thread nD τ).loc main_arg5)) shapeCasts_S128_S1x128 := by
  show StableHlo.after hostOps0 (W0 m ρ c) (Proc.devRef .tc main_v1) = _
  dsimp only [hostOps0]; after_results; rfl
theorem at1_bias3 (c : Dev nD) :
    (V1 m ρ c main_v2 : Mat 1 128) = shapeCast S1x128 (m ((c : Thread nD τ).loc main_arg7)) shapeCasts_S128_S1x128 := by
  show StableHlo.after hostOps0 (W0 m ρ c) (Proc.devRef .tc main_v2) = _
  dsimp only [hostOps0]; after_results; rfl
theorem at1_biasl (c : Dev nD) :
    (V1 m ρ c main_v3 : Mat 1 10) = shapeCast S1x10 (m ((c : Thread nD τ).loc main_arg9)) shapeCasts_S10_S1x10 := by
  show StableHlo.after hostOps0 (W0 m ρ c) (Proc.devRef .tc main_v3) = _
  dsimp only [hostOps0]; after_results; rfl

/-- The one row of a reshaped bias vector is the vector. -/
theorem row_bias1 (c : Dev nD) : row1 (V1 m ρ c main_v0 : Mat 1 128) = vecOf (m ((c : Thread nD τ).loc main_arg3)) := by
  rw [at1_bias1]; exact funext fun k => shapeCast_a_1a_apply _ _ 0 k
theorem row_bias2 (c : Dev nD) : row1 (V1 m ρ c main_v1 : Mat 1 128) = vecOf (m ((c : Thread nD τ).loc main_arg5)) := by
  rw [at1_bias2]; exact funext fun k => shapeCast_a_1a_apply _ _ 0 k
theorem row_bias3 (c : Dev nD) : row1 (V1 m ρ c main_v2 : Mat 1 128) = vecOf (m ((c : Thread nD τ).loc main_arg7)) := by
  rw [at1_bias3]; exact funext fun k => shapeCast_a_1a_apply _ _ 0 k
theorem row_biasl (c : Dev nD) : row1 (V1 m ρ c main_v3 : Mat 1 10) = vecOf (m ((c : Thread nD τ).loc main_arg9)) := by
  rw [at1_biasl]; exact funext fun k => shapeCast_a_1a_apply _ _ 0 k

/-! ## After the first region: the projected features; everything else untouched -/

theorem at2_feat (c : Dev nD) :
    (V2 m ρ c main_v4 : Mat 10000 128) = proj (m ((c : Thread nD τ).loc main_arg0)) (m ((c : Thread nD τ).loc main_arg2)) :=
  ((W2_arr m ρ c 2).trans (Region0.final2 (V1 m ρ) c)).trans (by rw [at1_arg0, at1_arg2])

theorem at2_arg1 (c : Dev nD) : V2 m ρ c main_arg1 = V1 m ρ c main_arg1 := W2_of_ne m ρ c main_arg1 (by decide)
theorem at2_v0 (c : Dev nD) : V2 m ρ c main_v0 = V1 m ρ c main_v0 := W2_of_ne m ρ c main_v0 (by decide)
theorem at2_arg4 (c : Dev nD) : V2 m ρ c main_arg4 = V1 m ρ c main_arg4 := W2_of_ne m ρ c main_arg4 (by decide)
theorem at2_v1 (c : Dev nD) : V2 m ρ c main_v1 = V1 m ρ c main_v1 := W2_of_ne m ρ c main_v1 (by decide)
theorem at2_arg6 (c : Dev nD) : V2 m ρ c main_arg6 = V1 m ρ c main_arg6 := W2_of_ne m ρ c main_arg6 (by decide)
theorem at2_v2 (c : Dev nD) : V2 m ρ c main_v2 = V1 m ρ c main_v2 := W2_of_ne m ρ c main_v2 (by decide)
theorem at2_arg8 (c : Dev nD) : V2 m ρ c main_arg8 = V1 m ρ c main_arg8 := W2_of_ne m ρ c main_arg8 (by decide)
theorem at2_v3 (c : Dev nD) : V2 m ρ c main_v3 = V1 m ρ c main_v3 := W2_of_ne m ρ c main_v3 (by decide)

/-! ## After the second region: the first layer's results and the narrowed adjacency -/

theorem at3_z1 (c : Dev nD) :
    (V3 m ρ c main_v5_0 : Mat 10000 128)
      = layer (m ((c : Thread nD τ).loc main_arg1))
          (proj (m ((c : Thread nD τ).loc main_arg0)) (m ((c : Thread nD τ).loc main_arg2)))
          (vecOf (m ((c : Thread nD τ).loc main_arg3))) (m ((c : Thread nD τ).loc main_arg4)) :=
  ((W3_arr m ρ c 4).trans (Region1.final4 (V2 m ρ) c)).trans (by
    rw [at2_arg1, at1_arg1, at2_feat, at2_v0, row_bias1, at2_arg4, at1_arg4])

theorem at3_adj (c : Dev nD) : (V3 m ρ c main_v5_1 : Mat 10000 10000) = m ((c : Thread nD τ).loc main_arg1) :=
  ((W3_arr m ρ c 5).trans (Region1.final5 (V2 m ρ) c)).trans (by rw [at2_arg1, at1_arg1])

theorem at3_v1 (c : Dev nD) : V3 m ρ c main_v1 = V1 m ρ c main_v1 := (W3_of_ne m ρ c main_v1 (by decide)).trans (at2_v1 m ρ c)
theorem at3_arg6 (c : Dev nD) : V3 m ρ c main_arg6 = V1 m ρ c main_arg6 := (W3_of_ne m ρ c main_arg6 (by decide)).trans (at2_arg6 m ρ c)
theorem at3_v2 (c : Dev nD) : V3 m ρ c main_v2 = V1 m ρ c main_v2 := (W3_of_ne m ρ c main_v2 (by decide)).trans (at2_v2 m ρ c)
theorem at3_arg8 (c : Dev nD) : V3 m ρ c main_arg8 = V1 m ρ c main_arg8 := (W3_of_ne m ρ c main_arg8 (by decide)).trans (at2_arg8 m ρ c)
theorem at3_v3 (c : Dev nD) : V3 m ρ c main_v3 = V1 m ρ c main_v3 := (W3_of_ne m ρ c main_v3 (by decide)).trans (at2_v3 m ρ c)

/-! ## After the third region: the second layer's results; the narrowed adjacency still in place -/

theorem at4_z2 (c : Dev nD) :
    (V4 m ρ c main_v6 : Mat 10000 128)
      = layer (m ((c : Thread nD τ).loc main_arg1))
          (layer (m ((c : Thread nD τ).loc main_arg1))
            (proj (m ((c : Thread nD τ).loc main_arg0)) (m ((c : Thread nD τ).loc main_arg2)))
            (vecOf (m ((c : Thread nD τ).loc main_arg3))) (m ((c : Thread nD τ).loc main_arg4)))
          (vecOf (m ((c : Thread nD τ).loc main_arg5))) (m ((c : Thread nD τ).loc main_arg6)) :=
  ((W4_arr m ρ c 4).trans (Region2.final4 (V3 m ρ) c)).trans (by
    rw [at3_adj, at3_z1, at3_v1, row_bias2, at3_arg6, at1_arg6])

theorem at4_adj (c : Dev nD) : (V4 m ρ c main_v5_1 : Mat 10000 10000) = m ((c : Thread nD τ).loc main_arg1) :=
  ((W4_arr m ρ c 0).trans (((dat2 (V3 m ρ) c).arrAt_in 0 rfl _).trans (A_eq2 (V3 m ρ) c 0))).trans (at3_adj m ρ c)

theorem at4_v2 (c : Dev nD) : V4 m ρ c main_v2 = V1 m ρ c main_v2 := (W4_of_ne m ρ c main_v2 (by decide)).trans (at3_v2 m ρ c)
theorem at4_arg8 (c : Dev nD) : V4 m ρ c main_arg8 = V1 m ρ c main_arg8 := (W4_of_ne m ρ c main_arg8 (by decide)).trans (at3_arg8 m ρ c)
theorem at4_v3 (c : Dev nD) : V4 m ρ c main_v3 = V1 m ρ c main_v3 := (W4_of_ne m ρ c main_v3 (by decide)).trans (at3_v3 m ρ c)

/-! ## After the last region: the result -/

/-- The result buffer at the end of the run is the network of the arguments. -/
theorem result (c : Dev nD) :
    (W5 m ρ c (Proc.devRef .tc main_v7) : Mat 10000 10)
      = network (m ((c : Thread nD τ).loc main_arg0)) (m ((c : Thread nD τ).loc main_arg1))
          (m ((c : Thread nD τ).loc main_arg2)) (vecOf (m ((c : Thread nD τ).loc main_arg3)))
          (m ((c : Thread nD τ).loc main_arg4)) (vecOf (m ((c : Thread nD τ).loc main_arg5)))
          (m ((c : Thread nD τ).loc main_arg6)) (vecOf (m ((c : Thread nD τ).loc main_arg7)))
          (m ((c : Thread nD τ).loc main_arg8)) (vecOf (m ((c : Thread nD τ).loc main_arg9))) :=
  ((W5_arr m ρ c 5).trans (Region3.final5 (V4 m ρ) c)).trans (by
    rw [at4_adj, at4_z2, at4_v2, row_bias3, at4_arg8, at1_arg8, at4_v3, row_biasl]
    rfl)

end Cert.KernelIdeal.Chain

end
-- ==== Proof.RefValue.lean ====
/-
  The reference program's result, stage by stage, is the network of the specification.

  Each `adj @ (h @ W) + b` followed by the rectifier is one `layer`: the host's matrix products are sums over the
  contracted coordinate, the bias is broadcast along the rows, and the rectifier is the maximum with zero.  The
  log-softmax takes each row's maximum by a fold of max from minus infinity, takes the maximum with minus infinity
  once more (which changes nothing), subtracts, exponentiates, sums the ten classes, takes the logarithm and
  subtracts again.
-/
import proofs.«141943_g22127671509522_cont_8to1_1214_5_alg».proof.Proof.RefRead
import proofs.«141943_g22127671509522_cont_8to1_1214_5_alg».proof.Proof.Spec
import Idealize.ShloMosaic.PureOps.Ideal.Laws
import Idealize.ShloMosaic.PureOps.Reduce
import Idealize.ShloMosaic.Lib.ValueIdx
import Idealize.ShloMosaic.Lib.Pipeline.Value

noncomputable section

open scoped BigOperators

namespace Cert.ReferenceIdeal.RefValue

open Cert.ReferenceIdeal Cert.ReferenceIdeal.Gen Cert.ReferenceIdeal.ReadP Cert.Gcn
open Idealize.ShloMosaic Idealize.ShloMosaic.ValueIdx

/-- The reference's first product is the specification's projection. -/
theorem proj_eq (x0 : Mat 10000 128) (x2 : Mat 128 128) :
    val_main_v0 (F := Ideal) x0 x2 = proj x0 x2 := by
  funext i
  have el : ∀ k : Fin 128, lidx_main_v0 i k = (ix2 (i 0) k : (⟨2, ![10000, 128]⟩ : Shape).Idx) :=
    fun k => funext fun d => Fin.ext (by match d with | ⟨0, _⟩ => rfl | ⟨1, _⟩ => rfl)
  have er : ∀ k : Fin 128, ridx_main_v0 i k = (ix2 k (i 1) : (⟨2, ![128, 128]⟩ : Shape).Idx) :=
    fun k => funext fun d => Fin.ext (by match d with | ⟨0, _⟩ => rfl | ⟨1, _⟩ => rfl)
  rw [val_main_v0_apply]
  simp only [el, er]
  rfl

/-- One hidden activation of the first layer: the adjacency row against a feature column, plus the bias, rectified. -/
theorem hid1_eq (x0 : Mat 10000 128) (x1 : Mat 10000 10000) (x2 : Mat 128 128) (x3 : (⟨1, ![128]⟩ : Shape).Idx → EReal)
    (a : Fin 10000) (k : Fin 128) :
    val_main_v5 (F := Ideal) x0 x1 x2 x3 (ix2 a k)
      = hid (rowOf x1 a) (val_main_v0 (F := Ideal) x0 x2) (vecOf x3) k := by
  have el : ∀ l : Fin 10000, lidx_main_v1 (ix2 a k) l = (ix2 a l : (⟨2, ![10000, 10000]⟩ : Shape).Idx) :=
    fun l => funext fun d => Fin.ext (by match d with | ⟨0, _⟩ => rfl | ⟨1, _⟩ => rfl)
  have er : ∀ l : Fin 10000, ridx_main_v1 (ix2 a k) l = (ix2 l k : (⟨2, ![10000, 128]⟩ : Shape).Idx) :=
    fun l => funext fun d => Fin.ext (by match d with | ⟨0, _⟩ => rfl | ⟨1, _⟩ => rfl)
  have eb : idx_main_v2 (idx_main_v3 (ix2 a k)) = (ix1 k : (⟨1, ![128]⟩ : Shape).Idx) :=
    funext fun d => Fin.ext (by match d with | ⟨0, _⟩ => rfl)
  rw [val_main_v5_apply, val_main_v4_apply, val_main_v1_apply, val_main_v3_apply, val_main_v2_apply,
    val_main_call0_v0_apply, val_main_call0_cst_apply]
  simp only [el, er, eb, Ideal.maximumf_def, Ideal.addf_def, Ideal.ofBits_def, Ideal.ofBits_zero_f32]
  rfl

/-- The reference's first layer, already multiplied by the second weights. -/
theorem layer1_eq (x0 : Mat 10000 128) (x1 : Mat 10000 10000) (x2 : Mat 128 128) (x3 : (⟨1, ![128]⟩ : Shape).Idx → EReal)
    (x4 : Mat 128 128) :
    val_main_v6 (F := Ideal) x0 x1 x2 x3 x4 = layer x1 (val_main_v0 (F := Ideal) x0 x2) (vecOf x3) x4 := by
  funext i
  obtain ⟨a, j, rfl⟩ : ∃ (a : Fin 10000) (j : Fin 128), i = ix2 a j := ⟨i 0, i 1, eq_ix2 i⟩
  have el : ∀ k : Fin 128, lidx_main_v6 (ix2 a j) k = (ix2 a k : (⟨2, ![10000, 128]⟩ : Shape).Idx) :=
    fun k => funext fun d => Fin.ext (by match d with | ⟨0, _⟩ => rfl | ⟨1, _⟩ => rfl)
  have er : ∀ k : Fin 128, ridx_main_v6 (ix2 a j) k = (ix2 k j : (⟨2, ![128, 128]⟩ : Shape).Idx) :=
    fun k => funext fun d => Fin.ext (by match d with | ⟨0, _⟩ => rfl | ⟨1, _⟩ => rfl)
  rw [val_main_v6_apply]
  simp only [el, er, hid1_eq]
  rfl

/-- One hidden activation of the second layer. -/
theorem hid2_eq (x0 : Mat 10000 128) (x1 : Mat 10000 10000) (x2 : Mat 128 128) (x3 : (⟨1, ![128]⟩ : Shape).Idx → EReal)
    (x4 : Mat 128 128) (x5 : (⟨1, ![128]⟩ : Shape).Idx → EReal) (a : Fin 10000) (k : Fin 128) :
    val_main_v11 (F := Ideal) x0 x1 x2 x3 x4 x5 (ix2 a k)
      = hid (rowOf x1 a) (val_main_v6 (F := Ideal) x0 x1 x2 x3 x4) (vecOf x5) k := by
  have el : ∀ l : Fin 10000, lidx_main_v7 (ix2 a k) l = (ix2 a l : (⟨2, ![10000, 10000]⟩ : Shape).Idx) :=
    fun l => funext fun d => Fin.ext (by match d with | ⟨0, _⟩ => rfl | ⟨1, _⟩ => rfl)
  have er : ∀ l : Fin 10000, ridx_main_v7 (ix2 a k) l = (ix2 l k : (⟨2, ![10000, 128]⟩ : Shape).Idx) :=
    fun l => funext fun d => Fin.ext (by match d with | ⟨0, _⟩ => rfl | ⟨1, _⟩ => rfl)
  have eb : idx_main_v8 (idx_main_v9 (ix2 a k)) = (ix1 k : (⟨1, ![128]⟩ : Shape).Idx) :=
    funext fun d => Fin.ext (by match d with | ⟨0, _⟩ => rfl)
  rw [val_main_v11_apply, val_main_v10_apply, val_main_v7_apply, val_main_v9_apply, val_main_v8_apply,
    val_main_call1_v0_apply, val_main_call1_cst_apply]
  simp only [el, er, eb, Ideal.maximumf_def, Ideal.addf_def, Ideal.ofBits_def, Ideal.ofBits_zero_f32]
  rfl

/-- The second layer over the first's result. -/
theorem layer2_eq (x0 : Mat 10000 128) (x1 : Mat 10000 10000) (x2 : Mat 128 128) (x3 : (⟨1, ![128]⟩ : Shape).Idx → EReal)
    (x4 : Mat 128 128) (x5 : (⟨1, ![128]⟩ : Shape).Idx → EReal) (x6 : Mat 128 128) :
    val_main_v12 (F := Ideal) x0 x1 x2 x3 x4 x5 x6
      = layer x1 (val_main_v6 (F := Ideal) x0 x1 x2 x3 x4) (vecOf x5) x6 := by
  funext i
  obtain ⟨a, j, rfl⟩ : ∃ (a : Fin 10000) (j : Fin 128), i = ix2 a j := ⟨i 0, i 1, eq_ix2 i⟩
  have el : ∀ k : Fin 128, lidx_main_v12 (ix2 a j) k = (ix2 a k : (⟨2, ![10000, 128]⟩ : Shape).Idx) :=
    fun k => funext fun d => Fin.ext (by match d with | ⟨0, _⟩ => rfl | ⟨1, _⟩ => rfl)
  have er : ∀ k : Fin 128, ridx_main_v12 (ix2 a j) k = (ix2 k j : (⟨2, ![128, 128]⟩ : Shape).Idx) :=
    fun k => funext fun d => Fin.ext (by match d with | ⟨0, _⟩ => rfl | ⟨1, _⟩ => rfl)
  rw [val_main_v12_apply]
  simp only [el, er, hid2_eq]
  rfl

/-- One hidden activation of the third layer. -/
theorem hid3_eq (x0 : Mat 10000 128) (x1 : Mat 10000 10000) (x2 : Mat 128 128) (x3 : (⟨1, ![128]⟩ : Shape).Idx → EReal)
    (x4 : Mat 128 128) (x5 : (⟨1, ![128]⟩ : Shape).Idx → EReal) (x6 : Mat 128 128)
    (x7 : (⟨1, ![128]⟩ : Shape).Idx → EReal) (a : Fin 10000) (k : Fin 128) :
    val_main_v17 (F := Ideal) x0 x1 x2 x3 x4 x5 x6 x7 (ix2 a k)
      = hid (rowOf x1 a) (val_main_v12 (F := Ideal) x0 x1 x2 x3 x4 x5 x6) (vecOf x7) k := by
  have el : ∀ l : Fin 10000, lidx_main_v13 (ix2 a k) l = (ix2 a l : (⟨2, ![10000, 10000]⟩ : Shape).Idx) :=
    fun l => funext fun d => Fin.ext (by match d with | ⟨0, _⟩ => rfl | ⟨1, _⟩ => rfl)
  have er : ∀ l : Fin 10000, ridx_main_v13 (ix2 a k) l = (ix2 l k : (⟨2, ![10000, 128]⟩ : Shape).Idx) :=
    fun l => funext fun d => Fin.ext (by match d with | ⟨0, _⟩ => rfl | ⟨1, _⟩ => rfl)
  have eb : idx_main_v14 (idx_main_v15 (ix2 a k)) = (ix1 k : (⟨1, ![128]⟩ : Shape).Idx) :=
    funext fun d => Fin.ext (by match d with | ⟨0, _⟩ => rfl)
  rw [val_main_v17_apply, val_main_v16_apply, val_main_v13_apply, val_main_v15_apply, val_main_v14_apply,
    val_main_call2_v0_apply, val_main_call2_cst_apply]
  simp only [el, er, eb, Ideal.maximumf_def, Ideal.addf_def, Ideal.ofBits_def, Ideal.ofBits_zero_f32]
  rfl

/-- One logit: the third layer's hidden activations against a read-out column, plus the read-out bias. -/
theorem logit_eq (x0 : Mat 10000 128) (x1 : Mat 10000 10000) (x2 : Mat 128 128) (x3 : (⟨1, ![128]⟩ : Shape).Idx → EReal)
    (x4 : Mat 128 128) (x5 : (⟨1, ![128]⟩ : Shape).Idx → EReal) (x6 : Mat 128 128)
    (x7 : (⟨1, ![128]⟩ : Shape).Idx → EReal) (x8 : Mat 128 10) (x9 : (⟨1, ![10]⟩ : Shape).Idx → EReal) (a : Fin 10000) (c : Fin 10) :
    val_main_v21 (F := Ideal) x0 x1 x2 x3 x4 x5 x6 x7 x8 x9 (ix2 a c) = logit (rowOf x1 a) (val_main_v12 (F := Ideal) x0 x1 x2 x3 x4 x5 x6) (vecOf x7) x8 (vecOf x9) c := by
  have el : ∀ k : Fin 128, lidx_main_v18 (ix2 a c) k = (ix2 a k : (⟨2, ![10000, 128]⟩ : Shape).Idx) :=
    fun k => funext fun d => Fin.ext (by match d with | ⟨0, _⟩ => rfl | ⟨1, _⟩ => rfl)
  have er : ∀ k : Fin 128, ridx_main_v18 (ix2 a c) k = (ix2 k c : (⟨2, ![128, 10]⟩ : Shape).Idx) :=
    fun k => funext fun d => Fin.ext (by match d with | ⟨0, _⟩ => rfl | ⟨1, _⟩ => rfl)
  have eb : idx_main_v19 (idx_main_v20 (ix2 a c)) = (ix1 c : (⟨1, ![10]⟩ : Shape).Idx) :=
    funext fun d => Fin.ext (by match d with | ⟨0, _⟩ => rfl)
  rw [val_main_v21_apply, val_main_v18_apply, val_main_v20_apply, val_main_v19_apply]
  simp only [el, er, eb, hid3_eq, Ideal.addf_def]
  rfl

/-- A row index with the class coordinate put back is the pair (row, class). -/
theorem lift_row (h : S10000x10.Reduces [1] S10000) (a : Fin 10000) (c : Fin (S10000x10.size 1)) :
    h.lift (ix1 a) c = (ix2 a (⟨c.val, c.isLt⟩ : Fin 10) : (⟨2, ![10000, 10]⟩ : Shape).Idx) := by
  funext d
  apply Fin.ext
  match d with
  | ⟨0, _⟩ => rfl
  | ⟨1, _⟩ => rfl

/-- The fold of max over a row of logits from minus infinity is the specification's row maximum. -/
theorem rowMax_eq (x0 : Mat 10000 128) (x1 : Mat 10000 10000) (x2 : Mat 128 128) (x3 : (⟨1, ![128]⟩ : Shape).Idx → EReal)
    (x4 : Mat 128 128) (x5 : (⟨1, ![128]⟩ : Shape).Idx → EReal) (x6 : Mat 128 128)
    (x7 : (⟨1, ![128]⟩ : Shape).Idx → EReal) (x8 : Mat 128 10) (x9 : (⟨1, ![10]⟩ : Shape).Idx → EReal) (a : Fin 10000) :
    val_main_call3_v0 (F := Ideal) x0 x1 x2 x3 x4 x5 x6 x7 x8 x9 (ix1 a) = rowMax (logit (rowOf x1 a) (val_main_v12 (F := Ideal) x0 x1 x2 x3 x4 x5 x6) (vecOf x7) x8 (vecOf x9)) := by
  have hr : S10000x10.Reduces [1] S10000 := by decide
  unfold val_main_call3_v0
  refine (Host.reduce_eq_fold_single (α := Ideal .f32) (s := S10000x10) (t := S10000) (a := 1) FloatOps.maximumf
    (val_main_v21 (F := Ideal) x0 x1 x2 x3 x4 x5 x6 x7 x8 x9) (val_main_call3_cst (F := Ideal))
    reducesTo_S10000x10_S10000_d1 hr h_S_ (ix1 a)).trans ?_
  have hf : (val_main_v21 (F := Ideal) x0 x1 x2 x3 x4 x5 x6 x7 x8 x9 ∘ hr.lift (ix1 a))
      = fun c : Fin 10 => logit (rowOf x1 a) (val_main_v12 (F := Ideal) x0 x1 x2 x3 x4 x5 x6) (vecOf x7) x8 (vecOf x9) c :=
    funext fun c => by rw [Function.comp_apply, lift_row hr a c, logit_eq]; rfl
  exact congrArg (fun f => Finset.fold max (Ideal.ofBits .f32 0xFF800000#32) f (Finset.univ : Finset (Fin 10))) hf

/-- Taking the maximum with minus infinity once more leaves the row maximum as it is. -/
theorem rowMax2_eq (x0 : Mat 10000 128) (x1 : Mat 10000 10000) (x2 : Mat 128 128) (x3 : (⟨1, ![128]⟩ : Shape).Idx → EReal)
    (x4 : Mat 128 128) (x5 : (⟨1, ![128]⟩ : Shape).Idx → EReal) (x6 : Mat 128 128)
    (x7 : (⟨1, ![128]⟩ : Shape).Idx → EReal) (x8 : Mat 128 10) (x9 : (⟨1, ![10]⟩ : Shape).Idx → EReal) (a : Fin 10000) :
    val_main_call3_v2 (F := Ideal) x0 x1 x2 x3 x4 x5 x6 x7 x8 x9 (ix1 a) = rowMax (logit (rowOf x1 a) (val_main_v12 (F := Ideal) x0 x1 x2 x3 x4 x5 x6) (vecOf x7) x8 (vecOf x9)) := by
  rw [val_main_call3_v2_apply, val_main_call3_v1_apply, val_main_call3_cst_0_apply, rowMax_eq]
  simp only [Ideal.maximumf_def, Ideal.ofBits_def]
  exact max_start_fold (Ideal.ofBits .f32 0xFF800000#32) _

/-- A logit minus its row's maximum. -/
theorem shifted_eq (x0 : Mat 10000 128) (x1 : Mat 10000 10000) (x2 : Mat 128 128) (x3 : (⟨1, ![128]⟩ : Shape).Idx → EReal)
    (x4 : Mat 128 128) (x5 : (⟨1, ![128]⟩ : Shape).Idx → EReal) (x6 : Mat 128 128)
    (x7 : (⟨1, ![128]⟩ : Shape).Idx → EReal) (x8 : Mat 128 10) (x9 : (⟨1, ![10]⟩ : Shape).Idx → EReal) (a : Fin 10000) (c : Fin 10) :
    val_main_call3_v5 (F := Ideal) x0 x1 x2 x3 x4 x5 x6 x7 x8 x9 (ix2 a c)
      = logit (rowOf x1 a) (val_main_v12 (F := Ideal) x0 x1 x2 x3 x4 x5 x6) (vecOf x7) x8 (vecOf x9) c - rowMax (logit (rowOf x1 a) (val_main_v12 (F := Ideal) x0 x1 x2 x3 x4 x5 x6) (vecOf x7) x8 (vecOf x9)) := by
  have e : idx_main_call3_v3 (idx_main_call3_v4 (ix2 a c)) = (ix1 a : (⟨1, ![10000]⟩ : Shape).Idx) :=
    funext fun d => Fin.ext (by match d with | ⟨0, _⟩ => rfl)
  rw [val_main_call3_v5_apply, val_main_call3_v4_apply, val_main_call3_v3_apply, e, rowMax2_eq, logit_eq]
  rfl

/-- The sum over the ten classes of the exponentials of the shifted logits. -/
theorem rowSum_eq (x0 : Mat 10000 128) (x1 : Mat 10000 10000) (x2 : Mat 128 128) (x3 : (⟨1, ![128]⟩ : Shape).Idx → EReal)
    (x4 : Mat 128 128) (x5 : (⟨1, ![128]⟩ : Shape).Idx → EReal) (x6 : Mat 128 128)
    (x7 : (⟨1, ![128]⟩ : Shape).Idx → EReal) (x8 : Mat 128 10) (x9 : (⟨1, ![10]⟩ : Shape).Idx → EReal) (a : Fin 10000) :
    val_main_call3_v7 (F := Ideal) x0 x1 x2 x3 x4 x5 x6 x7 x8 x9 (ix1 a)
      = ∑ c' : Fin 10, Ideal.exp (logit (rowOf x1 a) (val_main_v12 (F := Ideal) x0 x1 x2 x3 x4 x5 x6) (vecOf x7) x8 (vecOf x9) c' - rowMax (logit (rowOf x1 a) (val_main_v12 (F := Ideal) x0 x1 x2 x3 x4 x5 x6) (vecOf x7) x8 (vecOf x9))) := by
  have e : ∀ k : Fin 10, idx_main_call3_v7 (ix1 a) k = (ix2 a k : (⟨2, ![10000, 10]⟩ : Shape).Idx) :=
    fun k => funext fun d => Fin.ext (by match d with | ⟨0, _⟩ => rfl | ⟨1, _⟩ => rfl)
  rw [val_main_call3_v7_apply, val_main_call3_cst_1_apply]
  simp only [e, val_main_call3_v6_apply, shifted_eq, Ideal.hostUnary_exp_def, Ideal.ofBits_def, Ideal.ofBits_zero_f32,
    zero_add]

/-- The third layer, the read-out and the log-softmax over the second layer's result. -/
theorem out_eq (x0 : Mat 10000 128) (x1 : Mat 10000 10000) (x2 : Mat 128 128) (x3 : (⟨1, ![128]⟩ : Shape).Idx → EReal)
    (x4 : Mat 128 128) (x5 : (⟨1, ![128]⟩ : Shape).Idx → EReal) (x6 : Mat 128 128)
    (x7 : (⟨1, ![128]⟩ : Shape).Idx → EReal) (x8 : Mat 128 10) (x9 : (⟨1, ![10]⟩ : Shape).Idx → EReal) :
    val_main_v22 (F := Ideal) x0 x1 x2 x3 x4 x5 x6 x7 x8 x9
      = out x1 (val_main_v12 (F := Ideal) x0 x1 x2 x3 x4 x5 x6) (vecOf x7) x8 (vecOf x9) := by
  funext i
  obtain ⟨a, c, rfl⟩ : ∃ (a : Fin 10000) (c : Fin 10), i = ix2 a c := ⟨i 0, i 1, eq_ix2 i⟩
  have e : idx_main_call3_v8 (idx_main_call3_v10 (ix2 a c)) = (ix1 a : (⟨1, ![10000]⟩ : Shape).Idx) :=
    funext fun d => Fin.ext (by match d with | ⟨0, _⟩ => rfl)
  rw [val_main_v22_apply, shifted_eq, val_main_call3_v10_apply, val_main_call3_v9_apply, val_main_call3_v8_apply, e,
    rowSum_eq]
  simp only [Ideal.subf_def, Ideal.hostUnary_log_def]
  rfl

/-- The reference's result is the network of its arguments. -/
theorem result_eq (x0 : Mat 10000 128) (x1 : Mat 10000 10000) (x2 : Mat 128 128) (x3 : (⟨1, ![128]⟩ : Shape).Idx → EReal)
    (x4 : Mat 128 128) (x5 : (⟨1, ![128]⟩ : Shape).Idx → EReal) (x6 : Mat 128 128)
    (x7 : (⟨1, ![128]⟩ : Shape).Idx → EReal) (x8 : Mat 128 10) (x9 : (⟨1, ![10]⟩ : Shape).Idx → EReal) :
    val_main_v22 (F := Ideal) x0 x1 x2 x3 x4 x5 x6 x7 x8 x9
      = network x0 x1 x2 (vecOf x3) x4 (vecOf x5) x6 (vecOf x7) x8 (vecOf x9) := by
  rw [out_eq, layer2_eq, layer1_eq, proj_eq]
  rfl

end Cert.ReferenceIdeal.RefValue

end
-- ==== Proof.lean ====
/-
  A three-layer graph convolution with a linear read-out and a row-wise log-softmax, as four kernel calls, against
  the plain array program.

  The kernel program projects the features once (x · W1), then runs three calls over 25 blocks of 400 rows of the
  dense 10000 x 10000 adjacency.  Each call computes, for its rows, max(A_rows · Z + b, 0) and multiplies it at once by
  the NEXT layer's weights (the last one by the read-out weights, followed by the bias and the log-softmax of each row
  of ten logits).  The first of them also writes a narrowed copy of the adjacency that the later two read; at the exact
  extended reals a change of float format is the identity, so that copy is the adjacency.  The reference computes
  relu(A · (H · W) + b) three times, the read-out and jax's log_softmax.  Both group the products the same way, a
  block of rows of a product depends only on those rows of the left factor, and the log-softmax is row-wise: entry by
  entry the two programs are one function of the arguments, `Cert.Gcn.network` (Proof/Spec.lean).  No law that
  needs finiteness is used: sums are re-indexed, never re-associated across infinities.

  The frames of the two kernel programs are the generated ones; the reference's frame is its run with the result
  dropped; the idealization rewrote nothing, so `preserves` is trivial.
-/
import proofs.«141943_g22127671509522_cont_8to1_1214_5_alg».proof.Defs
import proofs.«141943_g22127671509522_cont_8to1_1214_5_alg».proof.Proof.Gen.Kernel
import proofs.«141943_g22127671509522_cont_8to1_1214_5_alg».proof.Proof.Gen.Kernel.Frame
import proofs.«141943_g22127671509522_cont_8to1_1214_5_alg».proof.Proof.Gen.KernelIdeal
import proofs.«141943_g22127671509522_cont_8to1_1214_5_alg».proof.Proof.Gen.KernelIdeal.Frame
import proofs.«141943_g22127671509522_cont_8to1_1214_5_alg».proof.Proof.Gen.ReferenceIdeal
import proofs.«141943_g22127671509522_cont_8to1_1214_5_alg».proof.Proof.Gen.Pre_finite_inputs
import proofs.«141943_g22127671509522_cont_8to1_1214_5_alg».proof.Proof.KernelRun
import proofs.«141943_g22127671509522_cont_8to1_1214_5_alg».proof.Proof.Chain
import proofs.«141943_g22127671509522_cont_8to1_1214_5_alg».proof.Proof.RefRun
import proofs.«141943_g22127671509522_cont_8to1_1214_5_alg».proof.Proof.RefRead
import proofs.«141943_g22127671509522_cont_8to1_1214_5_alg».proof.Proof.RefValue
import Idealize.ShloMosaic.Adequacy
import Idealize.ShloMosaic.Init

noncomputable section

namespace Cert.Proof

open Idealize.ShloMosaic Idealize.ShloMosaic.TcCoe Idealize.SL.Sem Cert.Gcn

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the ten arguments both programs end with the network of those arguments in their
    result buffers. -/
theorem algebraic : Cert.algebraic_KernelIdeal_ReferenceIdeal := by
  intro m ρ m' ρ' _ hagree
  refine ⟨fun c => network (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (vecOf (m ((c.tc : Thread Cert.KernelIdeal.nD Cert.KernelIdeal.τ).loc Cert.KernelIdeal.main_arg3)))
      (m ((c.tc : Thread Cert.KernelIdeal.nD Cert.KernelIdeal.τ).loc Cert.KernelIdeal.main_arg4)) (vecOf (m ((c.tc : Thread Cert.KernelIdeal.nD Cert.KernelIdeal.τ).loc Cert.KernelIdeal.main_arg5)))
      (m ((c.tc : Thread Cert.KernelIdeal.nD Cert.KernelIdeal.τ).loc Cert.KernelIdeal.main_arg6)) (vecOf (m ((c.tc : Thread Cert.KernelIdeal.nD Cert.KernelIdeal.τ).loc Cert.KernelIdeal.main_arg7)))
      (m ((c.tc : Thread Cert.KernelIdeal.nD Cert.KernelIdeal.τ).loc Cert.KernelIdeal.main_arg8)) (vecOf (m ((c.tc : Thread Cert.KernelIdeal.nD Cert.KernelIdeal.τ).loc Cert.KernelIdeal.main_arg9))), ?_, ?_⟩
  · exact (θ_run Cert.KernelIdeal.defs _ _).mono
      (fun r h c => ⟨(h c).1.trans (Cert.KernelIdeal.Chain.result m ρ c), (h c).2⟩)
      (Cert.KernelIdeal.GenRun.run_main m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5, a6, a7, a8, a9⟩ := hagree c
    rw [Cert.ReferenceIdeal.ReadP.val_main_v22_eq, a0, a1, a2, a3, a4, a5, a6, a7, a8, a9]
    exact Cert.ReferenceIdeal.RefValue.result_eq _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
